-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x128 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x128 : Shape := ⟨2, ![1, 128]⟩
abbrev S_ : Shape := ⟨0, ![]⟩
abbrev S128 : Shape := ⟨1, ![128]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S8192x64 : Shape := ⟨2, ![8192, 64]⟩
abbrev S64 : Shape := ⟨1, ![64]⟩
abbrev S8192x2 : Shape := ⟨2, ![8192, 2]⟩
abbrev S1x64 : Shape := ⟨2, ![1, 64]⟩

abbrev nBuf : Space → Nat
  | .hbm => 82
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x128, .i32⟩
  | .hbm, ⟨4, _⟩ => ⟨S8192x128, .i32⟩
  | .hbm, ⟨5, _⟩ => ⟨S8192x128, .i32⟩
  | .hbm, ⟨6, _⟩ => ⟨S8192x128, .i1⟩
  | .hbm, ⟨7, _⟩ => ⟨S8192x128, .f32⟩
  | .hbm, ⟨8, _⟩ => ⟨S_, .f32⟩
  | .hbm, ⟨9, _⟩ => ⟨S128, .f32⟩
  | .hbm, ⟨10, _⟩ => ⟨S8192x128, .f32⟩
  | .hbm, ⟨11, _⟩ => ⟨S8192x64, .f32⟩
  | .hbm, ⟨12, _⟩ => ⟨S64, .f32⟩
  | .hbm, ⟨13, _⟩ => ⟨S8192x64, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192, .f32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192x1, .i32⟩
  | .hbm, ⟨40, _⟩ => ⟨S8192x2, .i32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192x64, .f32⟩
  | .hbm, ⟨57, _⟩ => ⟨S8192x64, .i1⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .i1⟩
  | .hbm, ⟨62, _⟩ => ⟨S8192x64, .i1⟩
  | .hbm, ⟨63, _⟩ => ⟨S8192x64, .i1⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .i1⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_call1_v0 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_call2_v0 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  reducesTo_S8192x128_S128_d0 : S8192x128.ReducesTo [0] S128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  slices_S8192x128_S8192x64_0_0 : S8192x128.Slices ![0, 0] S8192x64
  slices_S128_S64_0 : S128.Slices ![0] S64
  bcast_S_S8192 : S_.BroadcastsInDim S8192 (![] : Fin 0 → Fin S8192.rank)
  concatenates_S8192x1_S8192x1_S8192x2_d1 : Shape.Concatenates [S8192x1, S8192x1] S8192x2 1
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S_S1x64 : S_.BroadcastsInDim S1x64 (![] : Fin 0 → Fin S1x64.rank)
  reducesTo_S8192x64_S8192_d1 : S8192x64.ReducesTo [1] S8192
  reducesTo_S8192_S_d0 : S8192.ReducesTo [0] S_
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  gather_S64_S8192x1_S8192_n_0_n_n_0_1_1_wf : GatherDims.WF S64 S8192x1 S8192 [] [0] [] [0] [] 1 ![1]
  gather_S8192x64_S8192x2_S8192_n_01_n_n_01_1_11_wf : GatherDims.WF S8192x64 S8192x2 S8192 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def gather_S8192x64_S8192x2_S8192_n_01_n_n_01_1_11 : GatherDims S8192x64 S8192x2 S8192 where
  offsetDims := []
  collapsedSliceDims := [0, 1]
  operandBatchingDims := []
  startIndicesBatchingDims := []
  startIndexMap := [0, 1]
  indexVectorDim := 1
  sliceSizes := ![1, 1]
  wf := gather_S8192x64_S8192x2_S8192_n_01_n_n_01_1_11_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S64 : Shape := ⟨1, ![64]⟩
abbrev S1x8192 : Shape := ⟨2, ![1, 8192]⟩
abbrev S8192x8192 : Shape := ⟨2, ![8192, 8192]⟩
abbrev S128x8192 : Shape := ⟨2, ![128, 8192]⟩
abbrev S8192x2 : Shape := ⟨2, ![8192, 2]⟩

abbrev nBuf : Space → Nat
  | .hbm => 106
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x64, .i32⟩
  | .hbm, ⟨4, _⟩ => ⟨S8192x64, .i32⟩
  | .hbm, ⟨5, _⟩ => ⟨S8192x64, .i32⟩
  | .hbm, ⟨6, _⟩ => ⟨S8192x64, .i1⟩
  | .hbm, ⟨7, _⟩ => ⟨S8192x64, .f32⟩
  | .hbm, ⟨8, _⟩ => ⟨S_, .f32⟩
  | .hbm, ⟨9, _⟩ => ⟨S64, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S128x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x64, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192, .f32⟩
  | .hbm, ⟨47, _⟩ => ⟨S8192, .i32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S8192x1, .i32⟩
  | .hbm, ⟨63, _⟩ => ⟨S8192x1, .i32⟩
  | .hbm, ⟨64, _⟩ => ⟨S8192x2, .i32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S8192x64, .f32⟩
  | .hbm, ⟨78, _⟩ => ⟨S8192x64, .f32⟩
  | .hbm, ⟨79, _⟩ => ⟨S_, .f32⟩
  | .hbm, ⟨80, _⟩ => ⟨S8192x64, .f32⟩
  | .hbm, ⟨81, _⟩ => ⟨S8192x64, .i1⟩
  | .hbm, ⟨82, _⟩ => ⟨S1x64, .f32⟩
  | .hbm, ⟨83, _⟩ => ⟨S_, .f32⟩
  | .hbm, ⟨84, _⟩ => ⟨S1x64, .f32⟩
  | .hbm, ⟨85, _⟩ => ⟨S1x64, .i1⟩
  | .hbm, ⟨86, _⟩ => ⟨S8192x64, .i1⟩
  | .hbm, ⟨87, _⟩ => ⟨S8192x64, .i1⟩
  | .hbm, ⟨88, _⟩ => ⟨S_, .f32⟩
  | .hbm, ⟨89, _⟩ => ⟨S8192x64, .f32⟩
  | .hbm, ⟨90, _⟩ => ⟨S8192x64, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S8192, .f32⟩
  | .hbm, ⟨98, _⟩ => ⟨S8192, .i1⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_call2_v0 : Ref sig .tc := ⟨.hbm, 89, rfl⟩
abbrev main_v62 : Ref sig .tc := ⟨.hbm, 90, rfl⟩
abbrev main_cst_16 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_cst_18 : Ref sig .tc := ⟨.hbm, 99, rfl⟩
abbrev main_call3_v0 : Ref sig .tc := ⟨.hbm, 100, rfl⟩
abbrev main_v69 : Ref sig .tc := ⟨.hbm, 101, rfl⟩
abbrev main_cst_19 : Ref sig .tc := ⟨.hbm, 102, rfl⟩
abbrev main_v70 : Ref sig .tc := ⟨.hbm, 103, rfl⟩
abbrev main_cst_20 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  reducesTo_S8192x64_S64_d0 : S8192x64.ReducesTo [0] S64
  h_S_ : 0 < S_.numel
  reducesTo_S8192x128_S8192_d1 : S8192x128.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  bcast_S_S64 : S_.BroadcastsInDim S64 (![] : Fin 0 → Fin S64.rank)
  bcast_S64_S1x64_1 : S64.BroadcastsInDim S1x64 (![1] : Fin 1 → Fin S1x64.rank)
  bcast_S_S8192x64 : S_.BroadcastsInDim S8192x64 (![] : Fin 0 → Fin S8192x64.rank)
  bcast_S_S1x64 : S_.BroadcastsInDim S1x64 (![] : Fin 0 → Fin S1x64.rank)
  reducesTo_S8192x64_S8192_d1 : S8192x64.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []
  dot_S8192x8192_S8192x64_S8192x64_1_0_0_1_n_n_wf : DotDims.WF S8192x8192 S8192x64 S8192x64 [1] [0] [0] [1] [] []
  gather_S64_S8192x1_S8192_n_0_n_n_0_1_1_wf : GatherDims.WF S64 S8192x1 S8192 [] [0] [] [0] [] 1 ![1]
  gather_S8192x64_S8192x2_S8192_n_01_n_n_01_1_11_wf : GatherDims.WF S8192x64 S8192x2 S8192 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def gather_S8192x64_S8192x2_S8192_n_01_n_n_01_1_11 : GatherDims S8192x64 S8192x2 S8192 where
  offsetDims := []
  collapsedSliceDims := [0, 1]
  operandBatchingDims := []
  startIndicesBatchingDims := []
  startIndexMap := [0, 1]
  indexVectorDim := 1
  sliceSizes := ![1, 1]
  wf := gather_S8192x64_S8192x2_S8192_n_01_n_n_01_1_11_wf

class Facts : Prop extends Facts₀ where

variable [Facts]
-- ==== Proof.K.Setup.lean ====
import proofs.«110028_j32676111188224_2_alg».proof.Proof.Gen.Kernel.Launch
import proofs.«110028_j32676111188224_2_alg».proof.Proof.Gen.Kernel.Skeleton
import proofs.«110028_j32676111188224_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The pairwise-distance kernel's pipeline, its data.

The grid is 8 x 8: point t has row block t / 8 and column block t % 8. Windows 0 and 1 both stage
the feature array (row block and column block), window 2 stages the column block of the one-hot
array, window 3 is the output's row block. A scratch buffer carries the partial sum over column
blocks: it is zeroed where t % 8 = 0, added to at every point, and copied to the output window where
t % 8 = 7, the only points at which that window is written back. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core c's buffers when the region is entered: the launch contents after the one-hot of the
    labels over 128 classes and its column sums. -/
abbrev entryVal (c : Dev nD) : Valuation τ sig (Elt F) :=
  StableHlo.after (List.flatten [hostOps0, hostOps0_1]) (fun b => m (c, b))
/-- The same read at a reference of the core. -/
abbrev entryAt (c : Dev nD) (b : Ref sig .tc) : Buf (Elt F) ((c : Thread nD τ).loc b) :=
  entryVal m c (Proc.devRef .tc b)

/-- The host lines after the region: slices back to 64 classes, then the silhouette score. -/
abbrev tailOps : List (List (HloOp τ sig (Elt F))) := [hostOps1, hostOps1_1, hostOps1_2, hostOps1_3, hostOps1_4]

/-- Window w's block of its array at point t, as the region finds the array. -/
def blk (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-! ## The staging memrefs and the scratch -/

abbrev stg0 (t : Fin cfg0.N) : Memref sig .tc .vmem S1024x128 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1024x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1024x128 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1024x128 .f32 := win0_3.stage (cfg0.slots t 3)
abbrev hstg3 (t : Fin cfg0.N) : (stg3 t).IsWhole := hstage0_3 ((cfg0.slots t 3).cast nbuf0_3)
/-- The partial-sum scratch, a whole scoped buffer. -/
abbrev accM : Memref sig .tc .vmem S1024x128 .f32 := Memref.whole cc0_scratch0

/-! ## The two branch conditions, in closed form over the grid -/

/-- "First column block": the condition under which the scratch is zeroed. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)
/-- "Last column block": the condition under which the scratch is copied to the output window. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The inputs are never idle; the output window is idle exactly off the last column block, and is
    not written back there. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## What the scratch holds after each point -/

/-- The scratch after the body at position n: this point's contribution added to zero on a first
    column block, else to what the point before left. -/
def accAt (c : Dev nD) : (n : ℕ) → n < cfg0.N → Vec F S1024x128 .f32
  | 0, h => k0_pay2 (blk m c 0 ⟨0, h⟩) (blk m c 1 ⟨0, h⟩) (blk m c 2 ⟨0, h⟩) (k0_pay1 (F := F))
  | n + 1, h => k0_pay2 (blk m c 0 ⟨n + 1, h⟩) (blk m c 1 ⟨n + 1, h⟩) (blk m c 2 ⟨n + 1, h⟩)
      (if (n + 1) % 8 = 0 then k0_pay1 (F := F) else accAt c n (Nat.lt_of_succ_lt h))

theorem accAt_first (c : Dev nD) (t : Fin cfg0.N) (h : t.val % 8 = 0) :
    accAt m c t.val t.isLt = k0_pay2 (blk m c 0 t) (blk m c 1 t) (blk m c 2 t) (k0_pay1 (F := F)) := by
  obtain ⟨n, hn⟩ := t
  cases n with
  | zero => rfl
  | succ n => exact (by show k0_pay2 _ _ _ (if (n + 1) % 8 = 0 then _ else _) = _; rw [if_pos h])

theorem accAt_later (c : Dev nD) (t : Fin cfg0.N) (h : ¬t.val % 8 = 0) :
    accAt m c t.val t.isLt = k0_pay2 (blk m c 0 t) (blk m c 1 t) (blk m c 2 t)
      (accAt m c (t.val - 1) (Nat.lt_of_le_of_lt (Nat.sub_le _ _) t.isLt)) := by
  obtain ⟨n, hn⟩ := t
  cases n with
  | zero => exact absurd (Nat.zero_mod _) h
  | succ n => exact (by show k0_pay2 _ _ _ (if (n + 1) % 8 = 0 then _ else _) = _; rw [if_neg h]; rfl)

/-! ## The region invariant -/

/-- Before position n: at the start every scoped buffer at anything; afterwards the scratch at what
    the point before left, and the generator register at some state. -/
def inv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) accM fullShare (accAt m c n hn)) ∗ (∃ r, prngReg c r)) := rfl
theorem inv_pos (c : Dev nD) (n : ℕ) (h : n ≤ cfg0.N) (hz : n ≠ 0) :
    inv m c n h = iprop(iprop(owns (c : Thread nD τ) accM fullShare (accAt m c (n - 1) (by omega))) ∗ (∃ r, prngReg c r)) := by
  cases n with
  | zero => exact absurd rfl hz
  | succ n => rfl

/-- The launch's invariant with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The proof data -/

/-- The pipeline's proof data on core c. The feature array is read by two windows, each holding
    half of it; the one-hot array and the output are held whole. -/
def dats (_ : Fin 1) (c : Dev nD) : Dat τ (Elt F) Unit ℕ (UR sig nD τ) ℕ cfg0 c where
  A w := entryAt m c (Pipeline.arrRef spec0 w)
  after w t := match w with
    | ⟨0, _⟩ => blk m c 0 t
    | ⟨1, _⟩ => blk m c 1 t
    | ⟨2, _⟩ => blk m c 2 t
    | ⟨3, _⟩ => accAt m c t.val t.isLt
  Φ t := inv m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = entryAt m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]
theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = accAt m c t.val t.isLt := by dsimp only [dats]

end Cert.Kernel.Hand

end
-- ==== Proof.K.Launch.lean ====
import proofs.«110028_j32676111188224_2_alg».proof.Proof.K.Setup

/-! The launch of the pairwise-distance kernel's region, whose first two windows stage one array.

The feature array is handed to the region through two input windows. The region holds it as two
half shares, one per window; before the region and after it the core holds the array whole. This
module supplies the two passages between "the three distinct buffers behind the four windows, each
whole" and "the four windows' arrays at their shares", runs the host lines that follow the region
over every unscoped buffer, and concludes what memory holds at the end. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays and the buffers behind them -/

/-- Four windows, three buffers: the features (twice), the padded one-hot, the output. -/
theorem arrRefs_eq : Finset.univ.image (Pipeline.arrRef spec0) = {main_arg0, main_v0, main_v2} := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The windows' arrays at the contents G of their buffers, written out: the features twice, at
    the two halves. -/
theorem arrays_eq (c : Dev nD) (G : (b : Ref sig .tc) → Buf (Elt F) ((c.tc : Thread nD τ).loc b)) :
    ((dats m 0 c).arrays (fun w => G (Pipeline.arrRef spec0 w)) : sProp 𝕄)
      = iprop((((c.tc : Thread nD τ).loc main_arg0) ↦{fullShare.left} G main_arg0)
          ∗ (((c.tc : Thread nD τ).loc main_arg0) ↦{fullShare.right} G main_arg0)
          ∗ (((c.tc : Thread nD τ).loc main_v0) ↦{fullShare} G main_v0)
          ∗ (((c.tc : Thread nD τ).loc main_v2) ↦{fullShare} G main_v2)) := by
  unfold Dat.arrays
  rw [bigSep_W0, (arr_whole0 0).set_eq_univ, (arr_whole0 2).set_eq_univ, (arr_whole0 3).set_eq_univ,
    share0, share1, share2, share3]

/-- The three buffers, each whole. -/
theorem arrBufs_eq (c : Dev nD) (G : (b : Ref sig .tc) → Buf (Elt F) ((c.tc : Thread nD τ).loc b)) :
    (Pipeline.arrBufs spec0 c G : sProp 𝕄)
      = iprop((((c.tc : Thread nD τ).loc main_arg0) ↦{fullShare} G main_arg0)
          ∗ (((c.tc : Thread nD τ).loc main_v0) ↦{fullShare} G main_v0)
          ∗ (((c.tc : Thread nD τ).loc main_v2) ↦{fullShare} G main_v2)) := by
  unfold Pipeline.arrBufs
  rw [arrRefs_eq, bigSep_insert (by decide), bigSep_insert (by decide), bigSep_singleton]
  rfl

/-- Entering the region: the feature array whole is its two halves. -/
theorem arrays_of_bufs (c : Dev nD) (G : (b : Ref sig .tc) → Buf (Elt F) ((c.tc : Thread nD τ).loc b)) :
    (Pipeline.arrBufs spec0 c G : sProp 𝕄) ⊢ (dats m 0 c).arrays (fun w => G (Pipeline.arrRef spec0 w)) := by
  rw [arrBufs_eq, arrays_eq]
  iintro ⟨HA, HB, HC⟩
  ihave HA := (pointsTo_share (PosShare.mem_left_op_right fullShare)).1 $$ HA
  icases HA with ⟨HA₁, HA₂⟩
  isplitl [HA₁]; · iexact HA₁
  isplitl [HA₂]; · iexact HA₂
  isplitl [HB]; · iexact HB
  iexact HC

/-- Leaving it: the two halves, at the same contents, are the array whole again. -/
theorem bufs_of_arrays (c : Dev nD) (G : (b : Ref sig .tc) → Buf (Elt F) ((c.tc : Thread nD τ).loc b)) :
    ((dats m 0 c).arrays (fun w => G (Pipeline.arrRef spec0 w)) : sProp 𝕄) ⊢ Pipeline.arrBufs spec0 c G := by
  rw [arrBufs_eq, arrays_eq]
  iintro ⟨HA₁, HA₂, HB, HC⟩
  ihave HA := (pointsTo_share (PosShare.mem_left_op_right fullShare)).2 $$ [HA₁ HA₂]
  · isplitl [HA₁] <;> iassumption
  isplitl [HA]; · iexact HA
  isplitl [HB]; · iexact HB
  iexact HC

/-! ## What the buffers hold when the region is left, and after the host lines that follow -/

/-- Core c's buffers when the region is left: the output array at what the write-backs left in it,
    every other buffer as the region found it. -/
def exitVal (c : Dev nD) : Valuation τ sig (Elt F) :=
  Function.update (entryVal m c) (Proc.devRef .tc main_v2) ((dats m 0 c).arrAt 3 cfg0.N)
abbrev exitAt (c : Dev nD) (b : Ref sig .tc) : Buf (Elt F) ((c : Thread nD τ).loc b) := exitVal m c (Proc.devRef .tc b)
/-- And after the lines that follow the region. -/
abbrev finalVal (c : Dev nD) : Valuation τ sig (Elt F) := StableHlo.after (tailOps (F := F)).flatten (exitVal m c)
abbrev finalAt (c : Dev nD) (b : Ref sig .tc) : Buf (Elt F) ((c : Thread nD τ).loc b) := finalVal m c (Proc.devRef .tc b)

/-- A buffer other than the output array leaves the region as it entered. -/
theorem exitAt_of_ne (c : Dev nD) (b : Ref sig .tc) (hb : b ≠ main_v2) : exitAt m c b = entryAt m c b :=
  Function.update_of_ne (fun e => hb (Proc.devRef_injective _ e)) _ _
theorem exitAt_out (c : Dev nD) : exitAt m c main_v2 = (dats m 0 c).arrAt 3 cfg0.N :=
  Function.update_self _ _ _

/-- Each window's array after every write-back is its buffer's contents at exit: an input array is
    never written. -/
theorem arrAt_exit (c : Dev nD) (w : Fin cfg0.W) : (dats m 0 c).arrAt w cfg0.N = exitAt m c (Pipeline.arrRef spec0 w) := by
  fin_cases w
  · exact ((dats m 0 c).arrAt_in 0 rfl _).trans ((A_eq m c 0).trans (exitAt_of_ne m c _ (by decide)).symm)
  · exact ((dats m 0 c).arrAt_in 1 rfl _).trans ((A_eq m c 1).trans (exitAt_of_ne m c _ (by decide)).symm)
  · exact ((dats m 0 c).arrAt_in 2 rfl _).trans ((A_eq m c 2).trans (exitAt_of_ne m c _ (by decide)).symm)
  · exact (exitAt_out m c).symm

/-- The buffers that bypass the region are the same at entry and at exit. -/
theorem rest_exit (c : Dev nD) :
    (Pipeline.unscopedRest spec0 c (entryAt m c) : sProp 𝕄) = Pipeline.unscopedRest spec0 c (exitAt m c) := by
  unfold Pipeline.unscopedRest
  exact bigSep_congr fun b hb => by
    rw [exitAt_of_ne m c b fun e => (Finset.mem_sdiff.mp hb).2 (Finset.mem_image.mpr ⟨3, Finset.mem_univ _, e.symm⟩)]

/-! ## The host lines after the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The lines touch unscoped buffers of the core only, -/
theorem tail_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- and allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The lines write none of the three arrays, nor the labels: each of these holds after them what it
    held at the region's exit. -/
theorem final_arg0 (c : Dev nD) : finalAt m c main_arg0 = exitAt m c main_arg0 := by
  show StableHlo.after (List.flatten [hostOps1, hostOps1_1, hostOps1_2, hostOps1_3, hostOps1_4]) (exitVal m c) (Proc.devRef .tc main_arg0) = _
  simp only [hostOps1, hostOps1_1, hostOps1_2, hostOps1_3, hostOps1_4, List.flatten_cons, List.flatten_nil, List.append_nil, List.cons_append, List.nil_append]
  after_results_simp
theorem final_v0 (c : Dev nD) : finalAt m c main_v0 = exitAt m c main_v0 := by
  show StableHlo.after (List.flatten [hostOps1, hostOps1_1, hostOps1_2, hostOps1_3, hostOps1_4]) (exitVal m c) (Proc.devRef .tc main_v0) = _
  simp only [hostOps1, hostOps1_1, hostOps1_2, hostOps1_3, hostOps1_4, List.flatten_cons, List.flatten_nil, List.append_nil, List.cons_append, List.nil_append]
  after_results_simp
theorem final_v2 (c : Dev nD) : finalAt m c main_v2 = exitAt m c main_v2 := by
  show StableHlo.after (List.flatten [hostOps1, hostOps1_1, hostOps1_2, hostOps1_3, hostOps1_4]) (exitVal m c) (Proc.devRef .tc main_v2) = _
  simp only [hostOps1, hostOps1_1, hostOps1_2, hostOps1_3, hostOps1_4, List.flatten_cons, List.flatten_nil, List.append_nil, List.cons_append, List.nil_append]
  after_results_simp
theorem final_arg1 (c : Dev nD) : finalAt m c main_arg1 = exitAt m c main_arg1 := by
  show StableHlo.after (List.flatten [hostOps1, hostOps1_1, hostOps1_2, hostOps1_3, hostOps1_4]) (exitVal m c) (Proc.devRef .tc main_arg1) = _
  simp only [hostOps1, hostOps1_1, hostOps1_2, hostOps1_3, hostOps1_4, List.flatten_cons, List.flatten_nil, List.append_nil, List.cons_append, List.nil_append]
  after_results_simp

/-- So each window's array is, after the lines, still what the region left. -/
theorem arrAt_final (c : Dev nD) (w : Fin cfg0.W) : (dats m 0 c).arrAt w cfg0.N = finalAt m c (Pipeline.arrRef spec0 w) := by
  rw [arrAt_exit]
  fin_cases w
  · exact (final_arg0 m c).symm
  · exact (final_arg0 m c).symm
  · exact (final_v0 m c).symm
  · exact (final_v2 m c).symm

/-- Leaving the region, the windows' arrays are the three buffers whole at the exit contents, -/
theorem exit_bufs (c : Dev nD) :
    ((dats m 0 c).arrays ((dats m 0 c).arrAt · cfg0.N) : sProp 𝕄) ⊢ Pipeline.arrBufs spec0 c (exitAt m c) :=
  (Entails.of_eq (congrArg (dats m 0 c).arrays (funext (arrAt_exit m c)))).trans (bufs_of_arrays m c _)
/-- and after the lines the three buffers are the windows' arrays again, at the same contents. -/
theorem final_arrays (c : Dev nD) :
    (Pipeline.arrBufs spec0 c (finalAt m c) : sProp 𝕄) ⊢ (dats m 0 c).arrays ((dats m 0 c).arrAt · cfg0.N) :=
  (arrays_of_bufs m c _).trans (Entails.of_eq (congrArg (dats m 0 c).arrays (funext (arrAt_final m c))).symm)

/-- Every unscoped buffer of the core, held at a valuation: the three arrays' buffers and the rest. -/
theorem held_all (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held, Pipeline.unscopedBufs_split₀ cfgs 0 winFacts₀0.arr_unscoped c]

set_option backward.isDefEq.respectTransparency.types false in
/-- The host lines run from the region's exit: the feature array's halves are joined, the lines run
    holding every unscoped buffer, and the array is split again for the launch's bookkeeping. -/
theorem tail_run (c : Dev nD) (Q' : PUnit → sProp 𝕄) :
    iprop((iprop((dats m 0 c).arrays ((dats m 0 c).arrAt · cfg0.N) ∗ Pipeline.unscopedRest spec0 c (finalAt m c)) -∗ Q' ⟨⟩)
        ∗ boundary (c.tc : Thread nD τ) ∗ (dats m 0 c).arrays ((dats m 0 c).arrAt · cfg0.N) ∗ Pipeline.unscopedRest spec0 c (entryAt m c))
      ⊢ wp frame (wpE (defs (F := F)) (Variants.lift Variants.none) (c.tc : Thread nD τ) none) Set.univ
          (Pipeline.chain ((tailOps (F := F)).map StableHlo.seq)) Q' := by
  rw [rest_exit m c, ← List.append_nil ((tailOps (F := F)).map StableHlo.seq)]
  iintro ⟨Hk, Hb, Harr, Hrest⟩
  ihave HB := (exit_bufs m c) $$ Harr
  iapply (Pipeline.wp_seqs_then (pcfgs (F := F)) defs₀ Variants.none c (Pipeline.ucRefs τ sig) [] tailOps tail_sub tail_fresh (exitVal m c)) $$ [Hb HB Hrest]
  · rw [held_all]
    isplitl [Hb]; · iexact Hb
    isplitl [HB] <;> iassumption
  iintro Hb
  rw [Pipeline.chain_nil, wp_pure, held_all]
  imodintro
  iapply Hk
  icases Hb with ⟨-, HB, Hrest⟩
  isplitl [HB]
  · iapply (final_arrays m c); iexact HB
  iexact Hrest

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the one-hot and its column sums, the region, then the lines after it. -/
theorem main_around : Pipeline.HMainK (Ix := Unit) (Name := ℕ) (U := UR sig nD τ) (Lvl := ℕ) cfgs 0 defs₀ Variants.none m (main (F := F)) (entryAt m)
      (fun _ => Pipeline.chain ((tailOps (F := F)).map StableHlo.seq)) :=
  Pipeline.hmain_around cfgs 0 defs₀ Variants.none m main [hostOps0, hostOps0_1] tailOps ⟨hostOps0_sub, hostOps0_1_sub⟩
    ⟨hostOps0_fresh, hostOps0_1_fresh⟩ main_chain

/-! ## The launch -/

set_option maxHeartbeats 4000000 in
set_option backward.isDefEq.respectTransparency.types false in
/-- From any memory with zero counters every weakly fair execution of @main terminates; at the end
    each window's array holds what the write-backs left and every buffer that bypasses the region
    what the host lines computed from the region's exit. -/
theorem run_region
    (hbody : ∀ c, BodyObligation (dats (F := F) m 0 c) (defs₀ (F := F)) Variants.none () Set.univ)
    (hin : ∀ c, Pipeline.ΦA spec0 c ⊢ (dats m 0 c).Φ 0)
    (hout : ∀ c, (dats m 0 c).Φ (Fin.last cfg0.N) ⊢ Pipeline.ΦA spec0 c) :
    θ_run (defs (F := F)) (onTc (τ := τ) (main (F := F))) ⟨m, fun _ => 0, ρ⟩
      (fun r => ∀ c : Dev nD, (∀ w, r.2.mem ((cfg0.spec w).arr.view.loc (c.tc : Thread nD τ)) = (dats m 0 c).arrAt w cfg0.N)
        ∧ ∀ b ∈ Pipeline.restRefs sig spec0, r.2.mem ((c.tc : Thread nD τ).loc b) = finalAt m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ((tailOps (F := F)).map StableHlo.seq))
    (fun c => (hbody c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := entryAt m) (hmain := main_around m)
    (hsplit := fun c => (arrays_of_bufs m c (entryAt m c)).trans (Entails.of_eq (congrArg (dats m 0 c).arrays
      (funext fun w => (A_eq m c w).symm))))
    (hpf := fun _ k => k.elim0)
    (X := fun c => iprop(∃ r, prngReg c r)) (Y := fun c => iprop(∃ r, prngReg c r))
    (Z := fun c => Pipeline.unscopedRest spec0 c (entryAt m c)) (Z' := fun c => Pipeline.unscopedRest spec0 c (finalAt m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ Pipeline.restRefs sig spec0, s.mem ((c.tc : Thread nD τ).loc b) = finalAt m c b)
    (hY := fun c s' => by
      iintro ⟨-, HU, HSI⟩
      unfold Pipeline.unscopedRest
      imodintro
      iapply (pointsTo_read_all (Pipeline.restRefs sig spec0) (fun b => (c.tc : Thread nD τ).loc b) (finalAt m c) s')
      isplitl [HU] <;> iassumption)
    (hQ := fun s h c => ⟨(h c).1, (h c).2.2⟩)

end Cert.Kernel.Hand

end
-- ==== Proof.K.RunFirst.lean ====
import proofs.«110028_j32676111188224_2_alg».proof.Proof.K.Setup
import Idealize.ShloMosaic.Lib.Pipeline.Value

/-! The kernel's body on a first column block.

The body is run on arbitrary whole buffers: the row block x0 and the column block x1 of the features,
the column block x2 of the one-hot array, the output's row block, and the partial-sum scratch. Every
load and store moves a whole 1024 x 128 block, so a buffer read after a store holds that store's value. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of every load and store of the body are zero: each moves a whole 1024 x 128 block. -/
theorem zeroOffsets : (![0, 0] : Fin 2 → Nat) = fun _ => 0 := funext fun a => by fin_cases a <;> rfl

/-- Stores into a block, the last of which moves the whole block, cover it. -/
theorem lastStoreCovers (w : Vec F S1024x128 .f32) (L : List (View.Piece (Elt F) S1024x128 .f32)) (y : S1024x128.Idx) :
    ∃ p ∈ ((⟨Rect.unit ![0, 0] S1024x128.size inb_S1024x128_S1024x128_0_0, w⟩ : View.Piece (Elt F) S1024x128 .f32) :: L),
      y ∈ p.1.set :=
  ⟨_, List.mem_cons.mpr (Or.inl rfl),
    View.mem_set_unit_zero (S := S1024x128) zeroOffsets inb_S1024x128_S1024x128_0_0 y⟩

set_option maxHeartbeats 1000000 in
/-- First column block. The scratch, whatever it held, is zeroed, and the block's contribution is added
    to that zero: it ends at `k0_pay2 x0 x1 x2 k0_pay1`, where x0 and x1 are the two feature blocks and
    x2 the one-hot block. The three inputs and the output window are handed back as they were. -/
theorem run_first (c : Dev nD) (i : grid0.Coords)
    (a0 : Memref sig .tc .vmem S1024x128 .f32) (h0 : a0.IsWhole)
    (a1 : Memref sig .tc .vmem S1024x128 .f32) (h1 : a1.IsWhole)
    (a2 : Memref sig .tc .vmem S1024x128 .f32) (h2 : a2.IsWhole)
    (a3 : Memref sig .tc .vmem S1024x128 .f32) (h3 : a3.IsWhole)
    (a4 : Memref sig .tc .vmem S1024x128 .f32) (h4 : a4.IsWhole)
    (hfirst : isFirst i) (hlast : ¬isLast i)
    (x0 x1 x2 y3 : Vec F S1024x128 .f32) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare y3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare y3
            ∗ owns (c : Thread nD τ) a4 fullShare (k0_pay2 x0 x1 x2 (k0_pay1 (F := F)))) -∗ K ⟨⟩))
      ⊢ wp frame (wpE (defs₀ (F := F)) Variants.none c none) E
          (cc0__segment_dist_kernel i a0 h0 a1 h1 a2 h2 a3 h3 a4 h4) K := by
  simp only [cc0__segment_dist_kernel_eq_skeleton]; unfold cc0__segment_dist_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h1.eq_unread hf1; obtain rfl := h2.eq_unread hf2
  obtain rfl := h3.eq_unread hf3
  sl_exec (disch := first | exact hfirst | exact hlast)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the last store covers the scratch, so it reads back as that store's payload; the payload's
  -- accumulator operand is the scratch read after the zeroing store, which is the zero block
  rw [View.read_writes_eq_canon _ _ _ (lastStoreCovers _ _)]
  rw [View.canon_cons_unit_zero (S := S1024x128) zeroOffsets]
  sl_unfold_words
  simp only [View.readAt_eq_ld, hf0, hf1, hf2, View.ld_unit_zero (S := S1024x128) zeroOffsets,
    View.readCov_unit_zero (S := S1024x128) _ zeroOffsets]

end Cert.Kernel.Hand

end
-- ==== Proof.K.RunMid.lean ====
import proofs.«110028_j32676111188224_2_alg».proof.Proof.K.RunFirst

/-! The kernel's body on a column block that is neither the first nor the last of its row. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A middle column block. The scratch holds the partial sum `acc` of the column blocks before this
    one; the block's contribution is added to it: the scratch ends at `k0_pay2 x0 x1 x2 acc`. The three
    inputs and the output window are handed back as they were. -/
theorem run_mid (c : Dev nD) (i : grid0.Coords)
    (a0 : Memref sig .tc .vmem S1024x128 .f32) (h0 : a0.IsWhole)
    (a1 : Memref sig .tc .vmem S1024x128 .f32) (h1 : a1.IsWhole)
    (a2 : Memref sig .tc .vmem S1024x128 .f32) (h2 : a2.IsWhole)
    (a3 : Memref sig .tc .vmem S1024x128 .f32) (h3 : a3.IsWhole)
    (a4 : Memref sig .tc .vmem S1024x128 .f32) (h4 : a4.IsWhole)
    (hfirst : ¬isFirst i) (hlast : ¬isLast i)
    (x0 x1 x2 y3 acc : Vec F S1024x128 .f32) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare y3
        ∗ owns (c : Thread nD τ) a4 fullShare acc
        ∗ (iprop(owns (c : Thread nD τ) a0 fullShare x0 ∗ owns (c : Thread nD τ) a1 fullShare x1
            ∗ owns (c : Thread nD τ) a2 fullShare x2 ∗ owns (c : Thread nD τ) a3 fullShare y3
            ∗ owns (c : Thread nD τ) a4 fullShare (k0_pay2 x0 x1 x2 acc)) -∗ K ⟨⟩))
      ⊢ wp frame (wpE (defs₀ (F := F)) Variants.none c none) E
          (cc0__segment_dist_kernel i a0 h0 a1 h1 a2 h2 a3 h3 a4 h4) K := by
  simp only [cc0__segment_dist_kernel_eq_skeleton]; unfold cc0__segment_dist_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h0.eq_unread hf0; obtain rfl := h1.eq_unread hf1; obtain rfl := h2.eq_unread hf2
  obtain rfl := h3.eq_unread hf3; obtain rfl := h4.eq_unread hf4
  sl_exec (disch := first | exact hfirst | exact hlast)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the one store covers the scratch, so it reads back as that store's payload, whose operands are
  -- the four buffers as they were found
  rw [View.read_writes_eq_canon _ _ _ (lastStoreCovers _ _)]
  rw [View.canon_cons_unit_zero (S := S1024x128) zeroOffsets]
  sl_unfold_words
  simp only [View.readAt_eq_ld, hf0, hf1, hf2, hf4, View.ld_unit_zero (S := S1024x128) zeroOffsets]

end Cert.Kernel.Hand

end
-- ==== Proof.K.RunLast.lean ====
import proofs.«110028_j32676111188224_2_alg».proof.Proof.K.RunMid

/-! The kernel's body on the last column block of a row. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last column block. The block's contribution is added to the partial sum `acc` in the scratch,
    and the finished sum is copied to the output window, whatever that held: both end at
    `k0_pay2 x0 x1 x2 acc`. The three inputs are handed back as they were. -/
theorem run_last (c : Dev nD) (i : grid0.Coords)
    (a0 : Memref sig .tc .vmem S1024x128 .f32) (h0 : a0.IsWhole)
    (a1 : Memref sig .tc .vmem S1024x128 .f32) (h1 : a1.IsWhole)
    (a2 : Memref sig .tc .vmem S1024x128 .f32) (h2 : a2.IsWhole)
    (a3 : Memref sig .tc .vmem S1024x128 .f32) (h3 : a3.IsWhole)
    (a4 : Memref sig .tc .vmem S1024x128 .f32) (h4 : a4.IsWhole)
    (hfirst : ¬isFirst i) (hlast : isLast i)
    (x0 x1 x2 acc : Vec F S1024x128 .f32) (E : Set ℕ) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ owns (c : Thread nD τ) a4 fullShare acc
        ∗ (iprop(owns (c : Thread nD τ) a0 fullShare x0 ∗ owns (c : Thread nD τ) a1 fullShare x1
            ∗ owns (c : Thread nD τ) a2 fullShare x2
            ∗ owns (c : Thread nD τ) a3 fullShare (k0_pay2 x0 x1 x2 acc)
            ∗ owns (c : Thread nD τ) a4 fullShare (k0_pay2 x0 x1 x2 acc)) -∗ K ⟨⟩))
      ⊢ wp frame (wpE (defs₀ (F := F)) Variants.none c none) E
          (cc0__segment_dist_kernel i a0 h0 a1 h1 a2 h2 a3 h3 a4 h4) K := by
  simp only [cc0__segment_dist_kernel_eq_skeleton]; unfold cc0__segment_dist_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h0.eq_unread hf0; obtain rfl := h1.eq_unread hf1; obtain rfl := h2.eq_unread hf2
  obtain rfl := h4.eq_unread hf4
  sl_exec (disch := first | exact hfirst | exact hlast)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    -- the output window's one store covers it; its payload is the scratch read after the scratch's
    -- store, which is that store's payload over the buffers as found
    rw [View.read_writes_eq_canon _ _ _ (lastStoreCovers _ _)]
    rw [View.canon_cons_unit_zero (S := S1024x128) zeroOffsets]
    sl_unfold_words
    simp only [View.readAt_eq_ld, hf0, hf1, hf2, hf4, View.ld_unit_zero (S := S1024x128) zeroOffsets,
      View.readCov_unit_zero (S := S1024x128) _ zeroOffsets]
  iexists _; isplitr
  swap; · iexact H4
  ipureintro
  -- the scratch's one store covers it and reads back as its payload over the buffers as found
  sl_unfold_words
  rw [View.read_writes_eq_canon _ _ _ (lastStoreCovers _ _)]
  rw [View.canon_cons_unit_zero (S := S1024x128) zeroOffsets]
  simp only [View.readAt_eq_ld, hf0, hf1, hf2, hf4, View.ld_unit_zero (S := S1024x128) zeroOffsets]

end Cert.Kernel.Hand

end
-- ==== Proof.K.Body.lean ====
import proofs.«110028_j32676111188224_2_alg».proof.Proof.K.RunLast

/-! The pairwise-distance kernel's body obligation.

At a point t = 8 r + k the body finds the row block r and the column block k of the features and the
column block k of the one-hot array in the three input buffers, whether or not the point fetched them.
On k = 0 it zeroes the scratch and adds the block's contribution; on 0 < k it adds the contribution to
what the point before left; on k = 7 it also copies the finished row-block sum to the output window,
which is idle, and not written back, everywhere else. So the scratch goes from `accAt` at t - 1 to
`accAt` at t, and the three runs of the body give the obligation by cases on k. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window's buffer holds when the body runs -/

/-- The row block of the features is in its buffer at every point, fetched there or not: between two
    fetches the row block does not change. -/
theorem before0 (c : Dev nD) (t : Fin cfg0.N) (d) : (dats m 0 c).before 0 t d = blk m c 0 t :=
  ((dats m 0 c).before_in_eq_fetched 0 rfl (fun _ => rfl) (fun _ _ _ => rfl)
    (fun t => by rw [after0]; unfold Dat.blockOf blk; rw [A_eq]; try rfl) t d).trans
    (by unfold Dat.fetched Dat.blockOf blk; rw [A_eq]; try rfl)
/-- The column block of the features. -/
theorem before1 (c : Dev nD) (t : Fin cfg0.N) (d) : (dats m 0 c).before 1 t d = blk m c 1 t :=
  ((dats m 0 c).before_in_eq_fetched 1 rfl (fun _ => rfl) (fun _ _ _ => rfl)
    (fun t => by rw [after1]; unfold Dat.blockOf blk; rw [A_eq]; try rfl) t d).trans
    (by unfold Dat.fetched Dat.blockOf blk; rw [A_eq]; try rfl)
/-- The column block of the one-hot array. -/
theorem before2 (c : Dev nD) (t : Fin cfg0.N) (d) : (dats m 0 c).before 2 t d = blk m c 2 t :=
  ((dats m 0 c).before_in_eq_fetched 2 rfl (fun _ => rfl) (fun _ _ _ => rfl)
    (fun t => by rw [after2]; unfold Dat.blockOf blk; rw [A_eq]; try rfl) t d).trans
    (by unfold Dat.fetched Dat.blockOf blk; rw [A_eq]; try rfl)

/-! ## The body at a generic point -/

/-- What the body is called with at point t: the invariant, what the core owes, and the four windows'
    current buffers. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- An input window is live at every point: the body leaves its block in its buffer. -/
theorem leaves0 (c : Dev nD) (t : Fin cfg0.N) :
    (dats m 0 c).leavesExact 0 t = owns (c : Thread nD τ) (stg0 t) fullShare (blk m c 0 t) := by
  unfold Dat.leavesExact; rw [live0 t, after0]
theorem leaves1 (c : Dev nD) (t : Fin cfg0.N) :
    (dats m 0 c).leavesExact 1 t = owns (c : Thread nD τ) (stg1 t) fullShare (blk m c 1 t) := by
  unfold Dat.leavesExact; rw [live1 t, after1]
theorem leaves2 (c : Dev nD) (t : Fin cfg0.N) :
    (dats m 0 c).leavesExact 2 t = owns (c : Thread nD τ) (stg2 t) fullShare (blk m c 2 t) := by
  unfold Dat.leavesExact; rw [live2 t, after2]
/-- On the last column block the output window is live and ends at the finished sum. -/
theorem leaves3_last (c : Dev nD) (t : Fin cfg0.N) (hl : isLast (grid0.coords t)) :
    (dats m 0 c).leavesExact 3 t = owns (c : Thread nD τ) (stg3 t) fullShare (accAt m c t.val t.isLt) := by
  unfold Dat.leavesExact; rw [live3 t hl, after3]

set_option maxHeartbeats 4000000 in
/-- The body at any point. The inputs' buffers hold their blocks; the invariant hands over the scratch
    — at anything before the first point, else at the partial sum the point before left —, and takes
    it back at this point's partial sum; the case of the point's column block chooses the run. A
    column block that is both first and last does not exist. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = inv m c (t.val + 1) t.isLt from rfl, inv_succ]
  rw [leaves0, leaves1, leaves2]
  have hN : t.val < 64 := lt_of_lt_of_eq t.isLt (show cfg0.N = 64 from N_0)
  by_cases h0 : t.val % 8 = 0
  · -- a first column block
    have hf : isFirst (grid0.coords t) := (isFirst_iff t).mpr h0
    have hnl : ¬isLast (grid0.coords t) := fun h => by have := (isLast_iff t).mp h; omega
    rw [Dat.leavesExact_idle (dats m 0 c) 3 t (idle3 t hnl) (noFlush3 t hnl)]
    rw [accAt_first m c t h0]
    by_cases hz : t.val = 0
    · rw [inv_castSucc m c t, inv_zero m c _ _ hz, PhiA_eq]
      iintro ⟨⟨HS, Hg⟩, Ho, ⟨%d0, H0⟩, ⟨%d1, H1⟩, ⟨%d2, H2⟩, ⟨%d3, H3⟩⟩
      iapply (run_first c (grid0.coords t) _ _ _ _ _ _ _ _ _ _ hf hnl (blk m c 0 t) (blk m c 1 t) (blk m c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [inv_castSucc m c t, inv_pos m c _ _ hz]
      iintro ⟨⟨HS, Hg⟩, Ho, ⟨%d0, H0⟩, ⟨%d1, H1⟩, ⟨%d2, H2⟩, ⟨%d3, H3⟩⟩
      iapply (run_first c (grid0.coords t) _ _ _ _ _ _ _ _ _ _ hf hnl (blk m c 0 t) (blk m c 1 t) (blk m c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hnf : ¬isFirst (grid0.coords t) := fun h => h0 ((isFirst_iff t).mp h)
    have hz : t.val ≠ 0 := fun e => h0 (by rw [e])
    rw [accAt_later m c t h0]
    rw [inv_castSucc m c t, inv_pos m c _ _ hz]
    by_cases h7 : t.val % 8 = 7
    · -- the last column block
      have hl : isLast (grid0.coords t) := (isLast_iff t).mpr h7
      rw [leaves3_last m c t hl, accAt_later m c t h0]
      iintro ⟨⟨HS, Hg⟩, Ho, ⟨%d0, H0⟩, ⟨%d1, H1⟩, ⟨%d2, H2⟩, ⟨%d3, H3⟩⟩
      iapply (run_last c (grid0.coords t) _ _ _ _ _ _ _ _ _ _ hnf hl (blk m c 0 t) (blk m c 1 t) (blk m c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- a middle column block
      have hnl : ¬isLast (grid0.coords t) := fun h => h7 ((isLast_iff t).mp h)
      rw [Dat.leavesExact_idle (dats m 0 c) 3 t (idle3 t hnl) (noFlush3 t hnl)]
      iintro ⟨⟨HS, Hg⟩, Ho, ⟨%d0, H0⟩, ⟨%d1, H1⟩, ⟨%d2, H2⟩, ⟨%d3, H3⟩⟩
      iapply (run_mid c (grid0.coords t) _ _ _ _ _ _ _ _ _ _ hnf hnl (blk m c 0 t) (blk m c 1 t) (blk m c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the launch's back: what the scratch holds is forgotten. -/
theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 64 := N_0; omega), PhiA_eq]
  iintro ⟨HS, Hg⟩
  isplitl [HS]
  · iexists _; iexact HS
  iexact Hg

end Cert.Kernel.Hand

end
-- ==== Proof.K.Frame.lean ====
import proofs.«110028_j32676111188224_2_alg».proof.Proof.K.Launch
import proofs.«110028_j32676111188224_2_alg».proof.Proof.K.Body

/-! The program runs to its end and leaves its two arguments as launched: the features are a
    window's array, which no write-back touches, and the labels bypass the region and are written
    by no host line. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Neither host line before the region writes an argument. -/
theorem entry_features (c : Dev nD) : entryAt m c main_arg0 = m ((c.tc : Thread nD τ).loc main_arg0) := by
  show StableHlo.after (List.flatten [hostOps0, hostOps0_1]) (fun b => m (c, b)) (Proc.devRef .tc main_arg0) = _
  simp only [hostOps0, hostOps0_1, List.flatten_cons, List.flatten_nil, List.append_nil, List.cons_append, List.nil_append]
  after_results_simp <;> rfl
theorem entry_labels (c : Dev nD) : entryAt m c main_arg1 = m ((c.tc : Thread nD τ).loc main_arg1) := by
  show StableHlo.after (List.flatten [hostOps0, hostOps0_1]) (fun b => m (c, b)) (Proc.devRef .tc main_arg1) = _
  simp only [hostOps0, hostOps0_1, List.flatten_cons, List.flatten_nil, List.append_nil, List.cons_append, List.nil_append]
  after_results_simp <;> rfl

/-- The run, with the proof data's body obligation and invariant supplied. -/
theorem run_all : θ_run (defs (F := F)) (onTc (τ := τ) (main (F := F))) ⟨m, fun _ => 0, ρ⟩
      (fun r => ∀ c : Dev nD, (∀ w, r.2.mem ((cfg0.spec w).arr.view.loc (c.tc : Thread nD τ)) = (dats m 0 c).arrAt w cfg0.N)
        ∧ ∀ b ∈ Pipeline.restRefs sig spec0, r.2.mem ((c.tc : Thread nD τ).loc b) = finalAt m c b) :=
  run_region m ρ (body_obligation m) (inv_in m) (inv_out m)

/-- The arguments at the end, read off the run's post. -/
theorem features_kept (c : Dev nD) (r : PUnit × MemSt nD τ sig (Elt F))
    (h : (∀ w, r.2.mem ((cfg0.spec w).arr.view.loc (c.tc : Thread nD τ)) = (dats m 0 c).arrAt w cfg0.N)
      ∧ ∀ b ∈ Pipeline.restRefs sig spec0, r.2.mem ((c.tc : Thread nD τ).loc b) = finalAt m c b) :
    r.2.mem ((c.tc : Thread nD τ).loc main_arg0) = m ((c.tc : Thread nD τ).loc main_arg0) :=
  ((h.1 0).trans ((dats m 0 c).arrAt_in 0 rfl _)).trans ((A_eq m c 0).trans (entry_features m c))
theorem labels_kept (c : Dev nD) (r : PUnit × MemSt nD τ sig (Elt F))
    (h : (∀ w, r.2.mem ((cfg0.spec w).arr.view.loc (c.tc : Thread nD τ)) = (dats m 0 c).arrAt w cfg0.N)
      ∧ ∀ b ∈ Pipeline.restRefs sig spec0, r.2.mem ((c.tc : Thread nD τ).loc b) = finalAt m c b) :
    r.2.mem ((c.tc : Thread nD τ).loc main_arg1) = m ((c.tc : Thread nD τ).loc main_arg1) :=
  (h.2 main_arg1 (by decide)).trans ((final_arg1 m c).trans ((exitAt_of_ne m c main_arg1 (by decide)).trans (entry_labels m c)))

/-- Every weakly fair execution terminates without a fault, the arguments unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨features_kept m c r (h c), labels_kept m c r (h c)⟩) (run_all m ρ)

end Cert.Kernel.Hand

end
-- ==== Proof.KI.Setup.lean ====
import proofs.«110028_j32676111188224_2_alg».proof.Proof.Gen.KernelIdeal.Launch
import proofs.«110028_j32676111188224_2_alg».proof.Proof.Gen.KernelIdeal.Skeleton
import proofs.«110028_j32676111188224_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The pairwise-distance kernel's pipeline, its data.

The grid is 8 x 8: point t has row block t / 8 and column block t % 8. Windows 0 and 1 both stage
the feature array (row block and column block), window 2 stages the column block of the one-hot
array, window 3 is the output's row block. A scratch buffer carries the partial sum over column
blocks: it is zeroed where t % 8 = 0, added to at every point, and copied to the output window where
t % 8 = 7, the only points at which that window is written back. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core c's buffers when the region is entered: the launch contents after the one-hot of the
    labels over 128 classes and its column sums. -/
abbrev entryVal (c : Dev nD) : Valuation τ sig (Elt F) :=
  StableHlo.after (List.flatten [hostOps0, hostOps0_1]) (fun b => m (c, b))
/-- The same read at a reference of the core. -/
abbrev entryAt (c : Dev nD) (b : Ref sig .tc) : Buf (Elt F) ((c : Thread nD τ).loc b) :=
  entryVal m c (Proc.devRef .tc b)

/-- The host lines after the region: slices back to 64 classes, then the silhouette score. -/
abbrev tailOps : List (List (HloOp τ sig (Elt F))) := [hostOps1, hostOps1_1, hostOps1_2, hostOps1_3, hostOps1_4]

/-- Window w's block of its array at point t, as the region finds the array. -/
def blk (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-! ## The staging memrefs and the scratch -/

abbrev stg0 (t : Fin cfg0.N) : Memref sig .tc .vmem S1024x128 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1024x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1024x128 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1024x128 .f32 := win0_3.stage (cfg0.slots t 3)
abbrev hstg3 (t : Fin cfg0.N) : (stg3 t).IsWhole := hstage0_3 ((cfg0.slots t 3).cast nbuf0_3)
/-- The partial-sum scratch, a whole scoped buffer. -/
abbrev accM : Memref sig .tc .vmem S1024x128 .f32 := Memref.whole cc0_scratch0

/-! ## The two branch conditions, in closed form over the grid -/

/-- "First column block": the condition under which the scratch is zeroed. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)
/-- "Last column block": the condition under which the scratch is copied to the output window. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The inputs are never idle; the output window is idle exactly off the last column block, and is
    not written back there. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## What the scratch holds after each point -/

/-- The scratch after the body at position n: this point's contribution added to zero on a first
    column block, else to what the point before left. -/
def accAt (c : Dev nD) : (n : ℕ) → n < cfg0.N → Vec F S1024x128 .f32
  | 0, h => k0_pay2 (blk m c 0 ⟨0, h⟩) (blk m c 1 ⟨0, h⟩) (blk m c 2 ⟨0, h⟩) (k0_pay1 (F := F))
  | n + 1, h => k0_pay2 (blk m c 0 ⟨n + 1, h⟩) (blk m c 1 ⟨n + 1, h⟩) (blk m c 2 ⟨n + 1, h⟩)
      (if (n + 1) % 8 = 0 then k0_pay1 (F := F) else accAt c n (Nat.lt_of_succ_lt h))

theorem accAt_first (c : Dev nD) (t : Fin cfg0.N) (h : t.val % 8 = 0) :
    accAt m c t.val t.isLt = k0_pay2 (blk m c 0 t) (blk m c 1 t) (blk m c 2 t) (k0_pay1 (F := F)) := by
  obtain ⟨n, hn⟩ := t
  cases n with
  | zero => rfl
  | succ n => exact (by show k0_pay2 _ _ _ (if (n + 1) % 8 = 0 then _ else _) = _; rw [if_pos h])

theorem accAt_later (c : Dev nD) (t : Fin cfg0.N) (h : ¬t.val % 8 = 0) :
    accAt m c t.val t.isLt = k0_pay2 (blk m c 0 t) (blk m c 1 t) (blk m c 2 t)
      (accAt m c (t.val - 1) (Nat.lt_of_le_of_lt (Nat.sub_le _ _) t.isLt)) := by
  obtain ⟨n, hn⟩ := t
  cases n with
  | zero => exact absurd (Nat.zero_mod _) h
  | succ n => exact (by show k0_pay2 _ _ _ (if (n + 1) % 8 = 0 then _ else _) = _; rw [if_neg h]; rfl)

/-! ## The region invariant -/

/-- Before position n: at the start every scoped buffer at anything; afterwards the scratch at what
    the point before left, and the generator register at some state. -/
def inv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) accM fullShare (accAt m c n hn)) ∗ (∃ r, prngReg c r)) := rfl
theorem inv_pos (c : Dev nD) (n : ℕ) (h : n ≤ cfg0.N) (hz : n ≠ 0) :
    inv m c n h = iprop(iprop(owns (c : Thread nD τ) accM fullShare (accAt m c (n - 1) (by omega))) ∗ (∃ r, prngReg c r)) := by
  cases n with
  | zero => exact absurd rfl hz
  | succ n => rfl

/-- The launch's invariant with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The proof data -/

/-- The pipeline's proof data on core c. The feature array is read by two windows, each holding
    half of it; the one-hot array and the output are held whole. -/
def dats (_ : Fin 1) (c : Dev nD) : Dat τ (Elt F) Unit ℕ (UR sig nD τ) ℕ cfg0 c where
  A w := entryAt m c (Pipeline.arrRef spec0 w)
  after w t := match w with
    | ⟨0, _⟩ => blk m c 0 t
    | ⟨1, _⟩ => blk m c 1 t
    | ⟨2, _⟩ => blk m c 2 t
    | ⟨3, _⟩ => accAt m c t.val t.isLt
  Φ t := inv m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = entryAt m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]
theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = accAt m c t.val t.isLt := by dsimp only [dats]

end Cert.KernelIdeal.Hand

end
-- ==== Proof.KI.Launch.lean ====
import proofs.«110028_j32676111188224_2_alg».proof.Proof.KI.Setup

/-! The launch of the pairwise-distance kernel's region, whose first two windows stage one array.

The feature array is handed to the region through two input windows. The region holds it as two
half shares, one per window; before the region and after it the core holds the array whole. This
module supplies the two passages between "the three distinct buffers behind the four windows, each
whole" and "the four windows' arrays at their shares", runs the host lines that follow the region
over every unscoped buffer, and concludes what memory holds at the end. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays and the buffers behind them -/

/-- Four windows, three buffers: the features (twice), the padded one-hot, the output. -/
theorem arrRefs_eq : Finset.univ.image (Pipeline.arrRef spec0) = {main_arg0, main_v0, main_v2} := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The windows' arrays at the contents G of their buffers, written out: the features twice, at
    the two halves. -/
theorem arrays_eq (c : Dev nD) (G : (b : Ref sig .tc) → Buf (Elt F) ((c.tc : Thread nD τ).loc b)) :
    ((dats m 0 c).arrays (fun w => G (Pipeline.arrRef spec0 w)) : sProp 𝕄)
      = iprop((((c.tc : Thread nD τ).loc main_arg0) ↦{fullShare.left} G main_arg0)
          ∗ (((c.tc : Thread nD τ).loc main_arg0) ↦{fullShare.right} G main_arg0)
          ∗ (((c.tc : Thread nD τ).loc main_v0) ↦{fullShare} G main_v0)
          ∗ (((c.tc : Thread nD τ).loc main_v2) ↦{fullShare} G main_v2)) := by
  unfold Dat.arrays
  rw [bigSep_W0, (arr_whole0 0).set_eq_univ, (arr_whole0 2).set_eq_univ, (arr_whole0 3).set_eq_univ,
    share0, share1, share2, share3]

/-- The three buffers, each whole. -/
theorem arrBufs_eq (c : Dev nD) (G : (b : Ref sig .tc) → Buf (Elt F) ((c.tc : Thread nD τ).loc b)) :
    (Pipeline.arrBufs spec0 c G : sProp 𝕄)
      = iprop((((c.tc : Thread nD τ).loc main_arg0) ↦{fullShare} G main_arg0)
          ∗ (((c.tc : Thread nD τ).loc main_v0) ↦{fullShare} G main_v0)
          ∗ (((c.tc : Thread nD τ).loc main_v2) ↦{fullShare} G main_v2)) := by
  unfold Pipeline.arrBufs
  rw [arrRefs_eq, bigSep_insert (by decide), bigSep_insert (by decide), bigSep_singleton]
  rfl

/-- Entering the region: the feature array whole is its two halves. -/
theorem arrays_of_bufs (c : Dev nD) (G : (b : Ref sig .tc) → Buf (Elt F) ((c.tc : Thread nD τ).loc b)) :
    (Pipeline.arrBufs spec0 c G : sProp 𝕄) ⊢ (dats m 0 c).arrays (fun w => G (Pipeline.arrRef spec0 w)) := by
  rw [arrBufs_eq, arrays_eq]
  iintro ⟨HA, HB, HC⟩
  ihave HA := (pointsTo_share (PosShare.mem_left_op_right fullShare)).1 $$ HA
  icases HA with ⟨HA₁, HA₂⟩
  isplitl [HA₁]; · iexact HA₁
  isplitl [HA₂]; · iexact HA₂
  isplitl [HB]; · iexact HB
  iexact HC

/-- Leaving it: the two halves, at the same contents, are the array whole again. -/
theorem bufs_of_arrays (c : Dev nD) (G : (b : Ref sig .tc) → Buf (Elt F) ((c.tc : Thread nD τ).loc b)) :
    ((dats m 0 c).arrays (fun w => G (Pipeline.arrRef spec0 w)) : sProp 𝕄) ⊢ Pipeline.arrBufs spec0 c G := by
  rw [arrBufs_eq, arrays_eq]
  iintro ⟨HA₁, HA₂, HB, HC⟩
  ihave HA := (pointsTo_share (PosShare.mem_left_op_right fullShare)).2 $$ [HA₁ HA₂]
  · isplitl [HA₁] <;> iassumption
  isplitl [HA]; · iexact HA
  isplitl [HB]; · iexact HB
  iexact HC

/-! ## What the buffers hold when the region is left, and after the host lines that follow -/

/-- Core c's buffers when the region is left: the output array at what the write-backs left in it,
    every other buffer as the region found it. -/
def exitVal (c : Dev nD) : Valuation τ sig (Elt F) :=
  Function.update (entryVal m c) (Proc.devRef .tc main_v2) ((dats m 0 c).arrAt 3 cfg0.N)
abbrev exitAt (c : Dev nD) (b : Ref sig .tc) : Buf (Elt F) ((c : Thread nD τ).loc b) := exitVal m c (Proc.devRef .tc b)
/-- And after the lines that follow the region. -/
abbrev finalVal (c : Dev nD) : Valuation τ sig (Elt F) := StableHlo.after (tailOps (F := F)).flatten (exitVal m c)
abbrev finalAt (c : Dev nD) (b : Ref sig .tc) : Buf (Elt F) ((c : Thread nD τ).loc b) := finalVal m c (Proc.devRef .tc b)

/-- A buffer other than the output array leaves the region as it entered. -/
theorem exitAt_of_ne (c : Dev nD) (b : Ref sig .tc) (hb : b ≠ main_v2) : exitAt m c b = entryAt m c b :=
  Function.update_of_ne (fun e => hb (Proc.devRef_injective _ e)) _ _
theorem exitAt_out (c : Dev nD) : exitAt m c main_v2 = (dats m 0 c).arrAt 3 cfg0.N :=
  Function.update_self _ _ _

/-- Each window's array after every write-back is its buffer's contents at exit: an input array is
    never written. -/
theorem arrAt_exit (c : Dev nD) (w : Fin cfg0.W) : (dats m 0 c).arrAt w cfg0.N = exitAt m c (Pipeline.arrRef spec0 w) := by
  fin_cases w
  · exact ((dats m 0 c).arrAt_in 0 rfl _).trans ((A_eq m c 0).trans (exitAt_of_ne m c _ (by decide)).symm)
  · exact ((dats m 0 c).arrAt_in 1 rfl _).trans ((A_eq m c 1).trans (exitAt_of_ne m c _ (by decide)).symm)
  · exact ((dats m 0 c).arrAt_in 2 rfl _).trans ((A_eq m c 2).trans (exitAt_of_ne m c _ (by decide)).symm)
  · exact (exitAt_out m c).symm

/-- The buffers that bypass the region are the same at entry and at exit. -/
theorem rest_exit (c : Dev nD) :
    (Pipeline.unscopedRest spec0 c (entryAt m c) : sProp 𝕄) = Pipeline.unscopedRest spec0 c (exitAt m c) := by
  unfold Pipeline.unscopedRest
  exact bigSep_congr fun b hb => by
    rw [exitAt_of_ne m c b fun e => (Finset.mem_sdiff.mp hb).2 (Finset.mem_image.mpr ⟨3, Finset.mem_univ _, e.symm⟩)]

/-! ## The host lines after the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The lines touch unscoped buffers of the core only, -/
theorem tail_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- and allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The lines write none of the three arrays, nor the labels: each of these holds after them what it
    held at the region's exit. -/
theorem final_arg0 (c : Dev nD) : finalAt m c main_arg0 = exitAt m c main_arg0 := by
  show StableHlo.after (List.flatten [hostOps1, hostOps1_1, hostOps1_2, hostOps1_3, hostOps1_4]) (exitVal m c) (Proc.devRef .tc main_arg0) = _
  simp only [hostOps1, hostOps1_1, hostOps1_2, hostOps1_3, hostOps1_4, List.flatten_cons, List.flatten_nil, List.append_nil, List.cons_append, List.nil_append]
  after_results_simp
theorem final_v0 (c : Dev nD) : finalAt m c main_v0 = exitAt m c main_v0 := by
  show StableHlo.after (List.flatten [hostOps1, hostOps1_1, hostOps1_2, hostOps1_3, hostOps1_4]) (exitVal m c) (Proc.devRef .tc main_v0) = _
  simp only [hostOps1, hostOps1_1, hostOps1_2, hostOps1_3, hostOps1_4, List.flatten_cons, List.flatten_nil, List.append_nil, List.cons_append, List.nil_append]
  after_results_simp
theorem final_v2 (c : Dev nD) : finalAt m c main_v2 = exitAt m c main_v2 := by
  show StableHlo.after (List.flatten [hostOps1, hostOps1_1, hostOps1_2, hostOps1_3, hostOps1_4]) (exitVal m c) (Proc.devRef .tc main_v2) = _
  simp only [hostOps1, hostOps1_1, hostOps1_2, hostOps1_3, hostOps1_4, List.flatten_cons, List.flatten_nil, List.append_nil, List.cons_append, List.nil_append]
  after_results_simp
theorem final_arg1 (c : Dev nD) : finalAt m c main_arg1 = exitAt m c main_arg1 := by
  show StableHlo.after (List.flatten [hostOps1, hostOps1_1, hostOps1_2, hostOps1_3, hostOps1_4]) (exitVal m c) (Proc.devRef .tc main_arg1) = _
  simp only [hostOps1, hostOps1_1, hostOps1_2, hostOps1_3, hostOps1_4, List.flatten_cons, List.flatten_nil, List.append_nil, List.cons_append, List.nil_append]
  after_results_simp

/-- So each window's array is, after the lines, still what the region left. -/
theorem arrAt_final (c : Dev nD) (w : Fin cfg0.W) : (dats m 0 c).arrAt w cfg0.N = finalAt m c (Pipeline.arrRef spec0 w) := by
  rw [arrAt_exit]
  fin_cases w
  · exact (final_arg0 m c).symm
  · exact (final_arg0 m c).symm
  · exact (final_v0 m c).symm
  · exact (final_v2 m c).symm

/-- Leaving the region, the windows' arrays are the three buffers whole at the exit contents, -/
theorem exit_bufs (c : Dev nD) :
    ((dats m 0 c).arrays ((dats m 0 c).arrAt · cfg0.N) : sProp 𝕄) ⊢ Pipeline.arrBufs spec0 c (exitAt m c) :=
  (Entails.of_eq (congrArg (dats m 0 c).arrays (funext (arrAt_exit m c)))).trans (bufs_of_arrays m c _)
/-- and after the lines the three buffers are the windows' arrays again, at the same contents. -/
theorem final_arrays (c : Dev nD) :
    (Pipeline.arrBufs spec0 c (finalAt m c) : sProp 𝕄) ⊢ (dats m 0 c).arrays ((dats m 0 c).arrAt · cfg0.N) :=
  (arrays_of_bufs m c _).trans (Entails.of_eq (congrArg (dats m 0 c).arrays (funext (arrAt_final m c))).symm)

/-- Every unscoped buffer of the core, held at a valuation: the three arrays' buffers and the rest. -/
theorem held_all (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held, Pipeline.unscopedBufs_split₀ cfgs 0 winFacts₀0.arr_unscoped c]

set_option backward.isDefEq.respectTransparency.types false in
/-- The host lines run from the region's exit: the feature array's halves are joined, the lines run
    holding every unscoped buffer, and the array is split again for the launch's bookkeeping. -/
theorem tail_run (c : Dev nD) (Q' : PUnit → sProp 𝕄) :
    iprop((iprop((dats m 0 c).arrays ((dats m 0 c).arrAt · cfg0.N) ∗ Pipeline.unscopedRest spec0 c (finalAt m c)) -∗ Q' ⟨⟩)
        ∗ boundary (c.tc : Thread nD τ) ∗ (dats m 0 c).arrays ((dats m 0 c).arrAt · cfg0.N) ∗ Pipeline.unscopedRest spec0 c (entryAt m c))
      ⊢ wp frame (wpE (defs (F := F)) (Variants.lift Variants.none) (c.tc : Thread nD τ) none) Set.univ
          (Pipeline.chain ((tailOps (F := F)).map StableHlo.seq)) Q' := by
  rw [rest_exit m c, ← List.append_nil ((tailOps (F := F)).map StableHlo.seq)]
  iintro ⟨Hk, Hb, Harr, Hrest⟩
  ihave HB := (exit_bufs m c) $$ Harr
  iapply (Pipeline.wp_seqs_then (pcfgs (F := F)) defs₀ Variants.none c (Pipeline.ucRefs τ sig) [] tailOps tail_sub tail_fresh (exitVal m c)) $$ [Hb HB Hrest]
  · rw [held_all]
    isplitl [Hb]; · iexact Hb
    isplitl [HB] <;> iassumption
  iintro Hb
  rw [Pipeline.chain_nil, wp_pure, held_all]
  imodintro
  iapply Hk
  icases Hb with ⟨-, HB, Hrest⟩
  isplitl [HB]
  · iapply (final_arrays m c); iexact HB
  iexact Hrest

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the one-hot and its column sums, the region, then the lines after it. -/
theorem main_around : Pipeline.HMainK (Ix := Unit) (Name := ℕ) (U := UR sig nD τ) (Lvl := ℕ) cfgs 0 defs₀ Variants.none m (main (F := F)) (entryAt m)
      (fun _ => Pipeline.chain ((tailOps (F := F)).map StableHlo.seq)) :=
  Pipeline.hmain_around cfgs 0 defs₀ Variants.none m main [hostOps0, hostOps0_1] tailOps ⟨hostOps0_sub, hostOps0_1_sub⟩
    ⟨hostOps0_fresh, hostOps0_1_fresh⟩ main_chain

/-! ## The launch -/

set_option maxHeartbeats 4000000 in
set_option backward.isDefEq.respectTransparency.types false in
/-- From any memory with zero counters every weakly fair execution of @main terminates; at the end
    each window's array holds what the write-backs left and every buffer that bypasses the region
    what the host lines computed from the region's exit. -/
theorem run_region
    (hbody : ∀ c, BodyObligation (dats (F := F) m 0 c) (defs₀ (F := F)) Variants.none () Set.univ)
    (hin : ∀ c, Pipeline.ΦA spec0 c ⊢ (dats m 0 c).Φ 0)
    (hout : ∀ c, (dats m 0 c).Φ (Fin.last cfg0.N) ⊢ Pipeline.ΦA spec0 c) :
    θ_run (defs (F := F)) (onTc (τ := τ) (main (F := F))) ⟨m, fun _ => 0, ρ⟩
      (fun r => ∀ c : Dev nD, (∀ w, r.2.mem ((cfg0.spec w).arr.view.loc (c.tc : Thread nD τ)) = (dats m 0 c).arrAt w cfg0.N)
        ∧ ∀ b ∈ Pipeline.restRefs sig spec0, r.2.mem ((c.tc : Thread nD τ).loc b) = finalAt m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ((tailOps (F := F)).map StableHlo.seq))
    (fun c => (hbody c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := entryAt m) (hmain := main_around m)
    (hsplit := fun c => (arrays_of_bufs m c (entryAt m c)).trans (Entails.of_eq (congrArg (dats m 0 c).arrays
      (funext fun w => (A_eq m c w).symm))))
    (hpf := fun _ k => k.elim0)
    (X := fun c => iprop(∃ r, prngReg c r)) (Y := fun c => iprop(∃ r, prngReg c r))
    (Z := fun c => Pipeline.unscopedRest spec0 c (entryAt m c)) (Z' := fun c => Pipeline.unscopedRest spec0 c (finalAt m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ Pipeline.restRefs sig spec0, s.mem ((c.tc : Thread nD τ).loc b) = finalAt m c b)
    (hY := fun c s' => by
      iintro ⟨-, HU, HSI⟩
      unfold Pipeline.unscopedRest
      imodintro
      iapply (pointsTo_read_all (Pipeline.restRefs sig spec0) (fun b => (c.tc : Thread nD τ).loc b) (finalAt m c) s')
      isplitl [HU] <;> iassumption)
    (hQ := fun s h c => ⟨(h c).1, (h c).2.2⟩)

end Cert.KernelIdeal.Hand

end
-- ==== Proof.KI.RunFirst.lean ====
import proofs.«110028_j32676111188224_2_alg».proof.Proof.KI.Setup
import Idealize.ShloMosaic.Lib.Pipeline.Value

/-! The kernel's body on a first column block.

The body is run on arbitrary whole buffers: the row block x0 and the column block x1 of the features,
the column block x2 of the one-hot array, the output's row block, and the partial-sum scratch. Every
load and store moves a whole 1024 x 128 block, so a buffer read after a store holds that store's value. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every load and store of the body are zero: each moves a whole 1024 x 128 block. -/
theorem zeroOffsets : (![0, 0] : Fin 2 → Nat) = fun _ => 0 := funext fun a => by fin_cases a <;> rfl

/-- Stores into a block, the last of which moves the whole block, cover it. -/
theorem lastStoreCovers (w : Vec F S1024x128 .f32) (L : List (View.Piece (Elt F) S1024x128 .f32)) (y : S1024x128.Idx) :
    ∃ p ∈ ((⟨Rect.unit ![0, 0] S1024x128.size inb_S1024x128_S1024x128_0_0, w⟩ : View.Piece (Elt F) S1024x128 .f32) :: L),
      y ∈ p.1.set :=
  ⟨_, List.mem_cons.mpr (Or.inl rfl),
    View.mem_set_unit_zero (S := S1024x128) zeroOffsets inb_S1024x128_S1024x128_0_0 y⟩

set_option maxHeartbeats 1000000 in
/-- First column block. The scratch, whatever it held, is zeroed, and the block's contribution is added
    to that zero: it ends at `k0_pay2 x0 x1 x2 k0_pay1`, where x0 and x1 are the two feature blocks and
    x2 the one-hot block. The three inputs and the output window are handed back as they were. -/
theorem run_first (c : Dev nD) (i : grid0.Coords)
    (a0 : Memref sig .tc .vmem S1024x128 .f32) (h0 : a0.IsWhole)
    (a1 : Memref sig .tc .vmem S1024x128 .f32) (h1 : a1.IsWhole)
    (a2 : Memref sig .tc .vmem S1024x128 .f32) (h2 : a2.IsWhole)
    (a3 : Memref sig .tc .vmem S1024x128 .f32) (h3 : a3.IsWhole)
    (a4 : Memref sig .tc .vmem S1024x128 .f32) (h4 : a4.IsWhole)
    (hfirst : isFirst i) (hlast : ¬isLast i)
    (x0 x1 x2 y3 : Vec F S1024x128 .f32) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare y3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare y3
            ∗ owns (c : Thread nD τ) a4 fullShare (k0_pay2 x0 x1 x2 (k0_pay1 (F := F)))) -∗ K ⟨⟩))
      ⊢ wp frame (wpE (defs₀ (F := F)) Variants.none c none) E
          (cc0__segment_dist_kernel i a0 h0 a1 h1 a2 h2 a3 h3 a4 h4) K := by
  simp only [cc0__segment_dist_kernel_eq_skeleton]; unfold cc0__segment_dist_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h1.eq_unread hf1; obtain rfl := h2.eq_unread hf2
  obtain rfl := h3.eq_unread hf3
  sl_exec (disch := first | exact hfirst | exact hlast)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the last store covers the scratch, so it reads back as that store's payload; the payload's
  -- accumulator operand is the scratch read after the zeroing store, which is the zero block
  rw [View.read_writes_eq_canon _ _ _ (lastStoreCovers _ _)]
  rw [View.canon_cons_unit_zero (S := S1024x128) zeroOffsets]
  sl_unfold_words
  simp only [View.readAt_eq_ld, hf0, hf1, hf2, View.ld_unit_zero (S := S1024x128) zeroOffsets,
    View.readCov_unit_zero (S := S1024x128) _ zeroOffsets]

end Cert.KernelIdeal.Hand

end
-- ==== Proof.KI.RunMid.lean ====
import proofs.«110028_j32676111188224_2_alg».proof.Proof.KI.RunFirst

/-! The kernel's body on a column block that is neither the first nor the last of its row. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A middle column block. The scratch holds the partial sum `acc` of the column blocks before this
    one; the block's contribution is added to it: the scratch ends at `k0_pay2 x0 x1 x2 acc`. The three
    inputs and the output window are handed back as they were. -/
theorem run_mid (c : Dev nD) (i : grid0.Coords)
    (a0 : Memref sig .tc .vmem S1024x128 .f32) (h0 : a0.IsWhole)
    (a1 : Memref sig .tc .vmem S1024x128 .f32) (h1 : a1.IsWhole)
    (a2 : Memref sig .tc .vmem S1024x128 .f32) (h2 : a2.IsWhole)
    (a3 : Memref sig .tc .vmem S1024x128 .f32) (h3 : a3.IsWhole)
    (a4 : Memref sig .tc .vmem S1024x128 .f32) (h4 : a4.IsWhole)
    (hfirst : ¬isFirst i) (hlast : ¬isLast i)
    (x0 x1 x2 y3 acc : Vec F S1024x128 .f32) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare y3
        ∗ owns (c : Thread nD τ) a4 fullShare acc
        ∗ (iprop(owns (c : Thread nD τ) a0 fullShare x0 ∗ owns (c : Thread nD τ) a1 fullShare x1
            ∗ owns (c : Thread nD τ) a2 fullShare x2 ∗ owns (c : Thread nD τ) a3 fullShare y3
            ∗ owns (c : Thread nD τ) a4 fullShare (k0_pay2 x0 x1 x2 acc)) -∗ K ⟨⟩))
      ⊢ wp frame (wpE (defs₀ (F := F)) Variants.none c none) E
          (cc0__segment_dist_kernel i a0 h0 a1 h1 a2 h2 a3 h3 a4 h4) K := by
  simp only [cc0__segment_dist_kernel_eq_skeleton]; unfold cc0__segment_dist_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h0.eq_unread hf0; obtain rfl := h1.eq_unread hf1; obtain rfl := h2.eq_unread hf2
  obtain rfl := h3.eq_unread hf3; obtain rfl := h4.eq_unread hf4
  sl_exec (disch := first | exact hfirst | exact hlast)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the one store covers the scratch, so it reads back as that store's payload, whose operands are
  -- the four buffers as they were found
  rw [View.read_writes_eq_canon _ _ _ (lastStoreCovers _ _)]
  rw [View.canon_cons_unit_zero (S := S1024x128) zeroOffsets]
  sl_unfold_words
  simp only [View.readAt_eq_ld, hf0, hf1, hf2, hf4, View.ld_unit_zero (S := S1024x128) zeroOffsets]

end Cert.KernelIdeal.Hand

end
-- ==== Proof.KI.RunLast.lean ====
import proofs.«110028_j32676111188224_2_alg».proof.Proof.KI.RunMid

/-! The kernel's body on the last column block of a row. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The last column block. The block's contribution is added to the partial sum `acc` in the scratch,
    and the finished sum is copied to the output window, whatever that held: both end at
    `k0_pay2 x0 x1 x2 acc`. The three inputs are handed back as they were. -/
theorem run_last (c : Dev nD) (i : grid0.Coords)
    (a0 : Memref sig .tc .vmem S1024x128 .f32) (h0 : a0.IsWhole)
    (a1 : Memref sig .tc .vmem S1024x128 .f32) (h1 : a1.IsWhole)
    (a2 : Memref sig .tc .vmem S1024x128 .f32) (h2 : a2.IsWhole)
    (a3 : Memref sig .tc .vmem S1024x128 .f32) (h3 : a3.IsWhole)
    (a4 : Memref sig .tc .vmem S1024x128 .f32) (h4 : a4.IsWhole)
    (hfirst : ¬isFirst i) (hlast : isLast i)
    (x0 x1 x2 acc : Vec F S1024x128 .f32) (E : Set ℕ) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ owns (c : Thread nD τ) a4 fullShare acc
        ∗ (iprop(owns (c : Thread nD τ) a0 fullShare x0 ∗ owns (c : Thread nD τ) a1 fullShare x1
            ∗ owns (c : Thread nD τ) a2 fullShare x2
            ∗ owns (c : Thread nD τ) a3 fullShare (k0_pay2 x0 x1 x2 acc)
            ∗ owns (c : Thread nD τ) a4 fullShare (k0_pay2 x0 x1 x2 acc)) -∗ K ⟨⟩))
      ⊢ wp frame (wpE (defs₀ (F := F)) Variants.none c none) E
          (cc0__segment_dist_kernel i a0 h0 a1 h1 a2 h2 a3 h3 a4 h4) K := by
  simp only [cc0__segment_dist_kernel_eq_skeleton]; unfold cc0__segment_dist_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h0.eq_unread hf0; obtain rfl := h1.eq_unread hf1; obtain rfl := h2.eq_unread hf2
  obtain rfl := h4.eq_unread hf4
  sl_exec (disch := first | exact hfirst | exact hlast)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    -- the output window's one store covers it; its payload is the scratch read after the scratch's
    -- store, which is that store's payload over the buffers as found
    rw [View.read_writes_eq_canon _ _ _ (lastStoreCovers _ _)]
    rw [View.canon_cons_unit_zero (S := S1024x128) zeroOffsets]
    sl_unfold_words
    simp only [View.readAt_eq_ld, hf0, hf1, hf2, hf4, View.ld_unit_zero (S := S1024x128) zeroOffsets,
      View.readCov_unit_zero (S := S1024x128) _ zeroOffsets]
  iexists _; isplitr
  swap; · iexact H4
  ipureintro
  -- the scratch's one store covers it and reads back as its payload over the buffers as found
  sl_unfold_words
  rw [View.read_writes_eq_canon _ _ _ (lastStoreCovers _ _)]
  rw [View.canon_cons_unit_zero (S := S1024x128) zeroOffsets]
  simp only [View.readAt_eq_ld, hf0, hf1, hf2, hf4, View.ld_unit_zero (S := S1024x128) zeroOffsets]

end Cert.KernelIdeal.Hand

end
-- ==== Proof.KI.Body.lean ====
import proofs.«110028_j32676111188224_2_alg».proof.Proof.KI.RunLast

/-! The pairwise-distance kernel's body obligation.

At a point t = 8 r + k the body finds the row block r and the column block k of the features and the
column block k of the one-hot array in the three input buffers, whether or not the point fetched them.
On k = 0 it zeroes the scratch and adds the block's contribution; on 0 < k it adds the contribution to
what the point before left; on k = 7 it also copies the finished row-block sum to the output window,
which is idle, and not written back, everywhere else. So the scratch goes from `accAt` at t - 1 to
`accAt` at t, and the three runs of the body give the obligation by cases on k. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window's buffer holds when the body runs -/

/-- The row block of the features is in its buffer at every point, fetched there or not: between two
    fetches the row block does not change. -/
theorem before0 (c : Dev nD) (t : Fin cfg0.N) (d) : (dats m 0 c).before 0 t d = blk m c 0 t :=
  ((dats m 0 c).before_in_eq_fetched 0 rfl (fun _ => rfl) (fun _ _ _ => rfl)
    (fun t => by rw [after0]; unfold Dat.blockOf blk; rw [A_eq]; try rfl) t d).trans
    (by unfold Dat.fetched Dat.blockOf blk; rw [A_eq]; try rfl)
/-- The column block of the features. -/
theorem before1 (c : Dev nD) (t : Fin cfg0.N) (d) : (dats m 0 c).before 1 t d = blk m c 1 t :=
  ((dats m 0 c).before_in_eq_fetched 1 rfl (fun _ => rfl) (fun _ _ _ => rfl)
    (fun t => by rw [after1]; unfold Dat.blockOf blk; rw [A_eq]; try rfl) t d).trans
    (by unfold Dat.fetched Dat.blockOf blk; rw [A_eq]; try rfl)
/-- The column block of the one-hot array. -/
theorem before2 (c : Dev nD) (t : Fin cfg0.N) (d) : (dats m 0 c).before 2 t d = blk m c 2 t :=
  ((dats m 0 c).before_in_eq_fetched 2 rfl (fun _ => rfl) (fun _ _ _ => rfl)
    (fun t => by rw [after2]; unfold Dat.blockOf blk; rw [A_eq]; try rfl) t d).trans
    (by unfold Dat.fetched Dat.blockOf blk; rw [A_eq]; try rfl)

/-! ## The body at a generic point -/

/-- What the body is called with at point t: the invariant, what the core owes, and the four windows'
    current buffers. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- An input window is live at every point: the body leaves its block in its buffer. -/
theorem leaves0 (c : Dev nD) (t : Fin cfg0.N) :
    (dats m 0 c).leavesExact 0 t = owns (c : Thread nD τ) (stg0 t) fullShare (blk m c 0 t) := by
  unfold Dat.leavesExact; rw [live0 t, after0]
theorem leaves1 (c : Dev nD) (t : Fin cfg0.N) :
    (dats m 0 c).leavesExact 1 t = owns (c : Thread nD τ) (stg1 t) fullShare (blk m c 1 t) := by
  unfold Dat.leavesExact; rw [live1 t, after1]
theorem leaves2 (c : Dev nD) (t : Fin cfg0.N) :
    (dats m 0 c).leavesExact 2 t = owns (c : Thread nD τ) (stg2 t) fullShare (blk m c 2 t) := by
  unfold Dat.leavesExact; rw [live2 t, after2]
/-- On the last column block the output window is live and ends at the finished sum. -/
theorem leaves3_last (c : Dev nD) (t : Fin cfg0.N) (hl : isLast (grid0.coords t)) :
    (dats m 0 c).leavesExact 3 t = owns (c : Thread nD τ) (stg3 t) fullShare (accAt m c t.val t.isLt) := by
  unfold Dat.leavesExact; rw [live3 t hl, after3]

set_option maxHeartbeats 4000000 in
/-- The body at any point. The inputs' buffers hold their blocks; the invariant hands over the scratch
    — at anything before the first point, else at the partial sum the point before left —, and takes
    it back at this point's partial sum; the case of the point's column block chooses the run. A
    column block that is both first and last does not exist. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = inv m c (t.val + 1) t.isLt from rfl, inv_succ]
  rw [leaves0, leaves1, leaves2]
  have hN : t.val < 64 := lt_of_lt_of_eq t.isLt (show cfg0.N = 64 from N_0)
  by_cases h0 : t.val % 8 = 0
  · -- a first column block
    have hf : isFirst (grid0.coords t) := (isFirst_iff t).mpr h0
    have hnl : ¬isLast (grid0.coords t) := fun h => by have := (isLast_iff t).mp h; omega
    rw [Dat.leavesExact_idle (dats m 0 c) 3 t (idle3 t hnl) (noFlush3 t hnl)]
    rw [accAt_first m c t h0]
    by_cases hz : t.val = 0
    · rw [inv_castSucc m c t, inv_zero m c _ _ hz, PhiA_eq]
      iintro ⟨⟨HS, Hg⟩, Ho, ⟨%d0, H0⟩, ⟨%d1, H1⟩, ⟨%d2, H2⟩, ⟨%d3, H3⟩⟩
      iapply (run_first c (grid0.coords t) _ _ _ _ _ _ _ _ _ _ hf hnl (blk m c 0 t) (blk m c 1 t) (blk m c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [inv_castSucc m c t, inv_pos m c _ _ hz]
      iintro ⟨⟨HS, Hg⟩, Ho, ⟨%d0, H0⟩, ⟨%d1, H1⟩, ⟨%d2, H2⟩, ⟨%d3, H3⟩⟩
      iapply (run_first c (grid0.coords t) _ _ _ _ _ _ _ _ _ _ hf hnl (blk m c 0 t) (blk m c 1 t) (blk m c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hnf : ¬isFirst (grid0.coords t) := fun h => h0 ((isFirst_iff t).mp h)
    have hz : t.val ≠ 0 := fun e => h0 (by rw [e])
    rw [accAt_later m c t h0]
    rw [inv_castSucc m c t, inv_pos m c _ _ hz]
    by_cases h7 : t.val % 8 = 7
    · -- the last column block
      have hl : isLast (grid0.coords t) := (isLast_iff t).mpr h7
      rw [leaves3_last m c t hl, accAt_later m c t h0]
      iintro ⟨⟨HS, Hg⟩, Ho, ⟨%d0, H0⟩, ⟨%d1, H1⟩, ⟨%d2, H2⟩, ⟨%d3, H3⟩⟩
      iapply (run_last c (grid0.coords t) _ _ _ _ _ _ _ _ _ _ hnf hl (blk m c 0 t) (blk m c 1 t) (blk m c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- a middle column block
      have hnl : ¬isLast (grid0.coords t) := fun h => h7 ((isLast_iff t).mp h)
      rw [Dat.leavesExact_idle (dats m 0 c) 3 t (idle3 t hnl) (noFlush3 t hnl)]
      iintro ⟨⟨HS, Hg⟩, Ho, ⟨%d0, H0⟩, ⟨%d1, H1⟩, ⟨%d2, H2⟩, ⟨%d3, H3⟩⟩
      iapply (run_mid c (grid0.coords t) _ _ _ _ _ _ _ _ _ _ hnf hnl (blk m c 0 t) (blk m c 1 t) (blk m c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the launch's back: what the scratch holds is forgotten. -/
theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 64 := N_0; omega), PhiA_eq]
  iintro ⟨HS, Hg⟩
  isplitl [HS]
  · iexists _; iexact HS
  iexact Hg

end Cert.KernelIdeal.Hand

end
-- ==== Proof.KI.Frame.lean ====
import proofs.«110028_j32676111188224_2_alg».proof.Proof.KI.Launch
import proofs.«110028_j32676111188224_2_alg».proof.Proof.KI.Body

/-! The program runs to its end and leaves its two arguments as launched: the features are a
    window's array, which no write-back touches, and the labels bypass the region and are written
    by no host line. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Neither host line before the region writes an argument. -/
theorem entry_features (c : Dev nD) : entryAt m c main_arg0 = m ((c.tc : Thread nD τ).loc main_arg0) := by
  show StableHlo.after (List.flatten [hostOps0, hostOps0_1]) (fun b => m (c, b)) (Proc.devRef .tc main_arg0) = _
  simp only [hostOps0, hostOps0_1, List.flatten_cons, List.flatten_nil, List.append_nil, List.cons_append, List.nil_append]
  after_results_simp <;> rfl
theorem entry_labels (c : Dev nD) : entryAt m c main_arg1 = m ((c.tc : Thread nD τ).loc main_arg1) := by
  show StableHlo.after (List.flatten [hostOps0, hostOps0_1]) (fun b => m (c, b)) (Proc.devRef .tc main_arg1) = _
  simp only [hostOps0, hostOps0_1, List.flatten_cons, List.flatten_nil, List.append_nil, List.cons_append, List.nil_append]
  after_results_simp <;> rfl

/-- The run, with the proof data's body obligation and invariant supplied. -/
theorem run_all : θ_run (defs (F := F)) (onTc (τ := τ) (main (F := F))) ⟨m, fun _ => 0, ρ⟩
      (fun r => ∀ c : Dev nD, (∀ w, r.2.mem ((cfg0.spec w).arr.view.loc (c.tc : Thread nD τ)) = (dats m 0 c).arrAt w cfg0.N)
        ∧ ∀ b ∈ Pipeline.restRefs sig spec0, r.2.mem ((c.tc : Thread nD τ).loc b) = finalAt m c b) :=
  run_region m ρ (body_obligation m) (inv_in m) (inv_out m)

/-- The arguments at the end, read off the run's post. -/
theorem features_kept (c : Dev nD) (r : PUnit × MemSt nD τ sig (Elt F))
    (h : (∀ w, r.2.mem ((cfg0.spec w).arr.view.loc (c.tc : Thread nD τ)) = (dats m 0 c).arrAt w cfg0.N)
      ∧ ∀ b ∈ Pipeline.restRefs sig spec0, r.2.mem ((c.tc : Thread nD τ).loc b) = finalAt m c b) :
    r.2.mem ((c.tc : Thread nD τ).loc main_arg0) = m ((c.tc : Thread nD τ).loc main_arg0) :=
  ((h.1 0).trans ((dats m 0 c).arrAt_in 0 rfl _)).trans ((A_eq m c 0).trans (entry_features m c))
theorem labels_kept (c : Dev nD) (r : PUnit × MemSt nD τ sig (Elt F))
    (h : (∀ w, r.2.mem ((cfg0.spec w).arr.view.loc (c.tc : Thread nD τ)) = (dats m 0 c).arrAt w cfg0.N)
      ∧ ∀ b ∈ Pipeline.restRefs sig spec0, r.2.mem ((c.tc : Thread nD τ).loc b) = finalAt m c b) :
    r.2.mem ((c.tc : Thread nD τ).loc main_arg1) = m ((c.tc : Thread nD τ).loc main_arg1) :=
  (h.2 main_arg1 (by decide)).trans ((final_arg1 m c).trans ((exitAt_of_ne m c main_arg1 (by decide)).trans (entry_labels m c)))

/-- Every weakly fair execution terminates without a fault, the arguments unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨features_kept m c r (h c), labels_kept m c r (h c)⟩) (run_all m ρ)

end Cert.KernelIdeal.Hand

end
-- ==== Proof.Tail.lean ====
import proofs.«110028_j32676111188224_2_alg».proof.KernelIdeal

/-! The silhouette score as one function of the per-class distance sums.

Once the distance sums S[i, c] (8192 points, 64 classes) are known, the score is a fixed chain of
array operations over S, the class counts, the class indicator table and the labels:

* n[i], the count of point i's own class, and a[i] = S[i, label i] / max (n[i] - 1) 1, the mean
  distance to the other points of its own class;
* b[i], the least over the classes c of S[i, c] / max (count c) 1, where point i's own class and the
  empty classes are first replaced by the largest finite value;
* s[i] = (b[i] - a[i]) / max b[i] a[i] where n[i] > 1, and 0 elsewhere; the score is the sum of the
  s[i] divided by 8192.

A label is read as an index by adding the extent when it is negative, as the array language does.
The class indicator table over 128 columns, its column sums, and the cut back to the first 64
columns are the first definitions; the score over the cut arrays is the last. Everything is generic
in the float family. -/

noncomputable section

namespace Cert.Tail

open Cert.KernelIdeal Idealize.ShloMosaic
open Cert.KernelIdeal.Facts₀

variable {F : FTy → Type} [FloatOps F] [Facts₀]

/-- The class indicator table over 128 columns: entry (i, c) is 1 where label i equals c, else 0.
    The labels are laid along the rows, the column numbers 0 … 127 along the columns, the two are
    compared and the truth value is read as a float. -/
def onehot128 (lab : (⟨S8192, .i32⟩ : BufTy).Contents (Elt F)) : (⟨S8192x128, .f32⟩ : BufTy).Contents (Elt F) :=
  uitofp (F := F) .f32
    (cmpi .eq
      (broadcastInDim S8192x128 ![0, 1] bcast_S8192x1_S8192x128_0_1
        (broadcastInDim S8192x1 ![0] bcast_S8192_S8192x1_0 lab))
      (broadcastInDim S8192x128 ![0, 1] bcast_S1x128_S8192x128_0_1 (iotaInDim S1x128 32 1)))

/-- The column sums of the indicator table: how many points carry each of the 128 class numbers. -/
def counts128 (lab : (⟨S8192, .i32⟩ : BufTy).Contents (Elt F)) : (⟨S128, .f32⟩ : BufTy).Contents (Elt F) :=
  Host.reduceAdd (onehot128 (F := F) lab) (constant (F := F) S_ .f32 0x00000000#32) reducesTo_S8192x128_S128_d0 h_S_

/-- The score from the distance sums `S`, the class counts `cnt`, the indicator table `oh` (each
    over 64 classes) and the labels, one line per array operation in the program's order. -/
def score (S : (⟨S8192x64, .f32⟩ : BufTy).Contents (Elt F)) (cnt : (⟨S64, .f32⟩ : BufTy).Contents (Elt F))
    (oh : (⟨S8192x64, .f32⟩ : BufTy).Contents (Elt F)) (lab : (⟨S8192, .i32⟩ : BufTy).Contents (Elt F)) :
    (⟨S_, .f32⟩ : BufTy).Contents (Elt F) :=
  -- the label as an index into the 64 classes: 64 is added to a negative label
  have c : (⟨S_, .i32⟩ : BufTy).Contents (Elt F) := constantI S_ 32 0#32
  have v6 : (⟨S8192, .i32⟩ : BufTy).Contents (Elt F) := broadcastInDim S8192 ![] bcast_S_S8192 c
  have v7 : (⟨S8192, .i1⟩ : BufTy).Contents (Elt F) := cmpi .slt lab v6
  have c_0 : (⟨S_, .i32⟩ : BufTy).Contents (Elt F) := constantI S_ 32 64#32
  have v8 : (⟨S8192, .i32⟩ : BufTy).Contents (Elt F) := broadcastInDim S8192 ![] bcast_S_S8192 c_0
  have v9 : (⟨S8192, .i32⟩ : BufTy).Contents (Elt F) := addi lab v8
  have v10 : (⟨S8192, .i32⟩ : BufTy).Contents (Elt F) := select v7 v9 lab
  have v11 : (⟨S8192x1, .i32⟩ : BufTy).Contents (Elt F) := broadcastInDim S8192x1 ![0] bcast_S8192_S8192x1_0 v10
  -- n[i]: the count of point i's own class
  have v12 : (⟨S8192, .f32⟩ : BufTy).Contents (Elt F) := Host.gather gather_S64_S8192x1_S8192_n_0_n_n_0_1_1 cnt v11
  -- the row number i as an index into the 8192 rows (8192 is added to a negative one: there is none)
  have v13 : (⟨S8192, .i32⟩ : BufTy).Contents (Elt F) := iotaInDim S8192 32 0
  have c_1 : (⟨S_, .i32⟩ : BufTy).Contents (Elt F) := constantI S_ 32 0#32
  have v14 : (⟨S8192, .i32⟩ : BufTy).Contents (Elt F) := broadcastInDim S8192 ![] bcast_S_S8192 c_1
  have v15 : (⟨S8192, .i1⟩ : BufTy).Contents (Elt F) := cmpi .slt v13 v14
  have c_2 : (⟨S_, .i32⟩ : BufTy).Contents (Elt F) := constantI S_ 32 8192#32
  have v16 : (⟨S8192, .i32⟩ : BufTy).Contents (Elt F) := broadcastInDim S8192 ![] bcast_S_S8192 c_2
  have v17 : (⟨S8192, .i32⟩ : BufTy).Contents (Elt F) := addi v13 v16
  have v18 : (⟨S8192, .i32⟩ : BufTy).Contents (Elt F) := select v15 v17 v13
  -- the label as a column index once more
  have c_3 : (⟨S_, .i32⟩ : BufTy).Contents (Elt F) := constantI S_ 32 0#32
  have v19 : (⟨S8192, .i32⟩ : BufTy).Contents (Elt F) := broadcastInDim S8192 ![] bcast_S_S8192 c_3
  have v20 : (⟨S8192, .i1⟩ : BufTy).Contents (Elt F) := cmpi .slt lab v19
  have c_4 : (⟨S_, .i32⟩ : BufTy).Contents (Elt F) := constantI S_ 32 64#32
  have v21 : (⟨S8192, .i32⟩ : BufTy).Contents (Elt F) := broadcastInDim S8192 ![] bcast_S_S8192 c_4
  have v22 : (⟨S8192, .i32⟩ : BufTy).Contents (Elt F) := addi lab v21
  have v23 : (⟨S8192, .i32⟩ : BufTy).Contents (Elt F) := select v20 v22 lab
  -- the pairs (i, label i), and S[i, label i]
  have v24 : (⟨S8192x1, .i32⟩ : BufTy).Contents (Elt F) := broadcastInDim S8192x1 ![0] bcast_S8192_S8192x1_0 v18
  have v25 : (⟨S8192x1, .i32⟩ : BufTy).Contents (Elt F) := broadcastInDim S8192x1 ![0] bcast_S8192_S8192x1_0 v23
  have v26 : (⟨S8192x2, .i32⟩ : BufTy).Contents (Elt F) :=
    concatenate S8192x2 1 [⟨S8192x1, v24⟩, ⟨S8192x1, v25⟩] concatenates_S8192x1_S8192x1_S8192x2_d1
  have v27 : (⟨S8192, .f32⟩ : BufTy).Contents (Elt F) := Host.gather gather_S8192x64_S8192x2_S8192_n_01_n_n_01_1_11 S v26
  -- a[i] = S[i, label i] / max (n[i] - 1) 1
  have cst_5 : (⟨S_, .f32⟩ : BufTy).Contents (Elt F) := constant (F := F) S_ .f32 0x3F800000#32
  have v28 : (⟨S8192, .f32⟩ : BufTy).Contents (Elt F) := broadcastInDim S8192 ![] bcast_S_S8192 cst_5
  have v29 : (⟨S8192, .f32⟩ : BufTy).Contents (Elt F) := subf v12 v28
  have cst_6 : (⟨S_, .f32⟩ : BufTy).Contents (Elt F) := constant (F := F) S_ .f32 0x3F800000#32
  have v30 : (⟨S8192, .f32⟩ : BufTy).Contents (Elt F) := broadcastInDim S8192 ![] bcast_S_S8192 cst_6
  have v31 : (⟨S8192, .f32⟩ : BufTy).Contents (Elt F) := maximumf v29 v30
  have v32 : (⟨S8192, .f32⟩ : BufTy).Contents (Elt F) := Host.divf (F := F) v27 v31
  -- S[i, c] / max (count c) 1
  have cst_7 : (⟨S_, .f32⟩ : BufTy).Contents (Elt F) := constant (F := F) S_ .f32 0x3F800000#32
  have v33 : (⟨S64, .f32⟩ : BufTy).Contents (Elt F) := broadcastInDim S64 ![] bcast_S_S64 cst_7
  have v34 : (⟨S64, .f32⟩ : BufTy).Contents (Elt F) := maximumf cnt v33
  have v35 : (⟨S1x64, .f32⟩ : BufTy).Contents (Elt F) := broadcastInDim S1x64 ![1] bcast_S64_S1x64_1 v34
  have v36 : (⟨S8192x64, .f32⟩ : BufTy).Contents (Elt F) := broadcastInDim S8192x64 ![0, 1] bcast_S1x64_S8192x64_0_1 v35
  have v37 : (⟨S8192x64, .f32⟩ : BufTy).Contents (Elt F) := Host.divf (F := F) S v36
  -- the entries left out of the minimum: point i's own class, and the classes with no point
  have cst_8 : (⟨S_, .f32⟩ : BufTy).Contents (Elt F) := constant (F := F) S_ .f32 0x00000000#32
  have v38 : (⟨S8192x64, .f32⟩ : BufTy).Contents (Elt F) := broadcastInDim S8192x64 ![] bcast_S_S8192x64 cst_8
  have v39 : (⟨S8192x64, .i1⟩ : BufTy).Contents (Elt F) := cmpf (F := F) .ogt oh v38
  have v40 : (⟨S1x64, .f32⟩ : BufTy).Contents (Elt F) := broadcastInDim S1x64 ![1] bcast_S64_S1x64_1 cnt
  have cst_9 : (⟨S_, .f32⟩ : BufTy).Contents (Elt F) := constant (F := F) S_ .f32 0x00000000#32
  have v41 : (⟨S1x64, .f32⟩ : BufTy).Contents (Elt F) := broadcastInDim S1x64 ![] bcast_S_S1x64 cst_9
  have v42 : (⟨S1x64, .i1⟩ : BufTy).Contents (Elt F) := cmpf (F := F) .oeq v40 v41
  have v43 : (⟨S8192x64, .i1⟩ : BufTy).Contents (Elt F) := broadcastInDim S8192x64 ![0, 1] bcast_S1x64_S8192x64_0_1 v42
  have v44 : (⟨S8192x64, .i1⟩ : BufTy).Contents (Elt F) := ori v39 v43
  -- they are replaced by the largest finite value
  have cst_10 : (⟨S_, .f32⟩ : BufTy).Contents (Elt F) := constant (F := F) S_ .f32 0x7F7FFFFF#32
  have call1_v0 : (⟨S8192x64, .f32⟩ : BufTy).Contents (Elt F) := broadcastInDim S8192x64 ![] bcast_S_S8192x64 cst_10
  have v45 : (⟨S8192x64, .f32⟩ : BufTy).Contents (Elt F) := select v44 call1_v0 v37
  -- b[i]: the least over the classes, from plus infinity
  have cst_11 : (⟨S_, .f32⟩ : BufTy).Contents (Elt F) := constant (F := F) S_ .f32 0x7F800000#32
  have v46 : (⟨S8192, .f32⟩ : BufTy).Contents (Elt F) := Host.reduce FloatOps.minimumf v45 cst_11 reducesTo_S8192x64_S8192_d1 h_S_
  -- (b[i] - a[i]) / max b[i] a[i]
  have v47 : (⟨S8192, .f32⟩ : BufTy).Contents (Elt F) := subf v46 v32
  have v48 : (⟨S8192, .f32⟩ : BufTy).Contents (Elt F) := maximumf v46 v32
  have v49 : (⟨S8192, .f32⟩ : BufTy).Contents (Elt F) := Host.divf (F := F) v47 v48
  -- kept where n[i] > 1, zero elsewhere
  have cst_12 : (⟨S_, .f32⟩ : BufTy).Contents (Elt F) := constant (F := F) S_ .f32 0x3F800000#32
  have v50 : (⟨S8192, .f32⟩ : BufTy).Contents (Elt F) := broadcastInDim S8192 ![] bcast_S_S8192 cst_12
  have v51 : (⟨S8192, .i1⟩ : BufTy).Contents (Elt F) := cmpf (F := F) .ogt v12 v50
  have cst_13 : (⟨S_, .f32⟩ : BufTy).Contents (Elt F) := constant (F := F) S_ .f32 0x00000000#32
  have call2_v0 : (⟨S8192, .f32⟩ : BufTy).Contents (Elt F) := broadcastInDim S8192 ![] bcast_S_S8192 cst_13
  have v52 : (⟨S8192, .f32⟩ : BufTy).Contents (Elt F) := select v51 v49 call2_v0
  -- the mean over the 8192 points
  have cst_14 : (⟨S_, .f32⟩ : BufTy).Contents (Elt F) := constant (F := F) S_ .f32 0x00000000#32
  have v53 : (⟨S_, .f32⟩ : BufTy).Contents (Elt F) := Host.reduceAdd (F := F) v52 cst_14 reducesTo_S8192_S_d0 h_S_
  have cst_15 : (⟨S_, .f32⟩ : BufTy).Contents (Elt F) := constant (F := F) S_ .f32 0x46000000#32
  Host.divf (F := F) v53 cst_15

/-- The score from the distance sums over 128 columns: the sums, the column sums of the 128-column
    indicator table and that table are each cut back to the first 64 columns. -/
def scorePadded (Sp : (⟨S8192x128, .f32⟩ : BufTy).Contents (Elt F)) (lab : (⟨S8192, .i32⟩ : BufTy).Contents (Elt F)) :
    (⟨S_, .f32⟩ : BufTy).Contents (Elt F) :=
  score (F := F)
    (extractStridedSlice S8192x64 ![0, 0] Sp slices_S8192x128_S8192x64_0_0)
    (extractStridedSlice S64 ![0] (counts128 (F := F) lab) slices_S128_S64_0)
    (extractStridedSlice S8192x64 ![0, 0] (onehot128 (F := F) lab) slices_S8192x128_S8192x64_0_0)
    lab

end Cert.Tail

end
-- ==== Proof.KI.Result.lean ====
import proofs.«110028_j32676111188224_2_alg».proof.Proof.KI.Frame
import proofs.«110028_j32676111188224_2_alg».proof.Proof.Tail

/-! What the host lines compute, as functions of the labels and the region's output.

Before the region the host computes the class indicator table over 128 columns and its column sums
from the labels and leaves the two arguments alone; after the region the result buffer is the
silhouette score of the region's output array cut back to 64 columns, of the cut counts and the cut
indicator table, and of the labels. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The region finds the class indicator table over 128 columns -/
theorem entry_onehot (c : Dev nD) : entryAt m c main_v0 = Cert.Tail.onehot128 (F := F) (m ((c.tc : Thread nD τ).loc main_arg1)) := by
  show StableHlo.after (List.flatten [hostOps0, hostOps0_1]) (fun b => m (c, b)) (Proc.devRef .tc main_v0) = _
  simp only [hostOps0, hostOps0_1, List.flatten_cons, List.flatten_nil, List.append_nil, List.cons_append, List.nil_append]
  after_results_simp <;> rfl
/-- and its column sums. -/
theorem entry_counts (c : Dev nD) : entryAt m c main_v1 = Cert.Tail.counts128 (F := F) (m ((c.tc : Thread nD τ).loc main_arg1)) := by
  show StableHlo.after (List.flatten [hostOps0, hostOps0_1]) (fun b => m (c, b)) (Proc.devRef .tc main_v1) = _
  simp only [hostOps0, hostOps0_1, List.flatten_cons, List.flatten_nil, List.append_nil, List.cons_append, List.nil_append]
  after_results_simp <;> rfl

set_option maxHeartbeats 2000000 in
/-- After the host lines the result buffer holds the score of the region's output and the labels. The
    two operands of the one concatenate among the lines are read off the earlier lines one operation at
    a time. -/
theorem final_score (c : Dev nD) :
    finalAt m c main_v54 = Cert.Tail.scorePadded (F := F) ((dats m 0 c).arrAt 3 cfg0.N) (m ((c.tc : Thread nD τ).loc main_arg1)) := by
  have h2 : exitVal m c (Proc.devRef .tc main_v2) = (dats m 0 c).arrAt 3 cfg0.N := exitAt_out m c
  have h1 : exitVal m c (Proc.devRef .tc main_v1) = Cert.Tail.counts128 (F := F) (m ((c.tc : Thread nD τ).loc main_arg1)) :=
    (exitAt_of_ne m c main_v1 (by decide)).trans (entry_counts m c)
  have h0 : exitVal m c (Proc.devRef .tc main_v0) = Cert.Tail.onehot128 (F := F) (m ((c.tc : Thread nD τ).loc main_arg1)) :=
    (exitAt_of_ne m c main_v0 (by decide)).trans (entry_onehot m c)
  have hl : exitVal m c (Proc.devRef .tc main_arg1) = m ((c.tc : Thread nD τ).loc main_arg1) :=
    (exitAt_of_ne m c main_arg1 (by decide)).trans (entry_labels m c)
  show StableHlo.after (List.flatten [hostOps1, hostOps1_1, hostOps1_2, hostOps1_3, hostOps1_4]) (exitVal m c) (Proc.devRef .tc main_v54) = _
  generalize exitVal m c = W at h2 h1 h0 hl ⊢
  simp only [hostOps1, hostOps1_1, hostOps1_2, hostOps1_3, hostOps1_4, List.flatten_cons, List.flatten_nil, List.append_nil, List.cons_append, List.nil_append]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [h2, h1, h0, hl]
  rfl

end Cert.KernelIdeal.Hand

end
-- ==== Proof.KI.Value.lean ====
import proofs.«110028_j32676111188224_2_alg».proof.Proof.KI.Frame
import proofs.«110028_j32676111188224_2_alg».proof.Proof.KI.Result

/-! The run with its result named: the score of the region's output array and the labels. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem run_scored : θ_run (defs (F := F)) (onTc (τ := τ) (main (F := F))) ⟨m, fun _ => 0, ρ⟩ (fun r => ∀ c : Dev nD,
      r.2.mem ((c.tc : Thread nD τ).loc main_v54)
          = Cert.Tail.scorePadded (F := F) ((dats m 0 c).arrAt 3 cfg0.N) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v54 (by decide)).trans (final_score m c),
      features_kept m c r (h c), labels_kept m c r (h c)⟩) (run_all m ρ)

end Cert.KernelIdeal.Hand

end
-- ==== Proof.Spec.lean ====
import Idealize.ShloMosaic.PureOps.Ideal
import Mathlib.Algebra.BigOperators.Group.Finset.Basic

/-! The mathematics both programs compute, over the extended reals.

For 8192 points of 128 coordinates each, the distance of two points is the square root of their
squared norms' sum less twice their inner product, cut below at zero; the per-class distance sum of a
point is the sum over all points of the distance times that point's class indicator. -/

noncomputable section

namespace Cert.Spec

open Idealize.ShloMosaic

/-- The squared norm of point i. -/
def sqn (x : Fin 8192 → Fin 128 → EReal) (i : Fin 8192) : EReal := ∑ d : Fin 128, x i d * x i d

/-- The inner product of points i and j. -/
def dotp (x : Fin 8192 → Fin 128 → EReal) (i j : Fin 8192) : EReal := ∑ d : Fin 128, x i d * x j d

/-- The squared distance as both programs group it: the two squared norms first, then twice the
    inner product taken off. The factor two is the float literal both programs carry. -/
def d2 (x : Fin 8192 → Fin 128 → EReal) (i j : Fin 8192) : EReal :=
  (sqn x i + sqn x j) - Ideal.ofBits .f32 0x40000000#32 * dotp x i j

/-- The distance: the square root of the squared distance cut below at zero. -/
def dist (x : Fin 8192 → Fin 128 → EReal) (i j : Fin 8192) : EReal := Ideal.sqrt (max (d2 x i j) 0)

/-- The distance sum of point i against the indicator column k of a class table over C classes. -/
def distSum {C : ℕ} (x : Fin 8192 → Fin 128 → EReal) (oh : Fin 8192 → Fin C → EReal) (i : Fin 8192) (k : Fin C) : EReal :=
  ∑ j : Fin 8192, dist x i j * oh j k

/-- The square root vanishes at zero. -/
theorem sqrt_zero : Ideal.sqrt 0 = 0 := by
  have h : Ideal.sqrt (((0 : ℝ)) : EReal) = if (0 : ℝ) < 0 then ⊥ else ((Real.sqrt 0 : ℝ) : EReal) := rfl
  rw [show (0 : EReal) = (((0 : ℝ)) : EReal) from rfl, h, if_neg (lt_irrefl _), Real.sqrt_zero]

end Cert.Spec

end
-- ==== Proof.PayloadAt.lean ====
import proofs.«110028_j32676111188224_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The two values the kernel body stores, read entry by entry over the extended reals.

The first stored value is the zero block. The second is the running sum plus, for a block of 1024
query rows and a block of 1024 key rows, the sum over the key rows of the distance between the query
row and the key row times the key row's class indicator; the distance is the square root of the two
squared norms' sum less twice the inner product, cut below at zero. -/

noncomputable section

namespace Cert.PayloadAt

open Idealize.ShloMosaic ValueIdx
open Cert.KernelIdeal Cert.KernelIdeal.Gen

variable {α : Type}

/-! ## Column forms of the layout operations -/

/-- A vector of length a cast to an a x 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 column broadcast to a x b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum -/

/-- The sum along the 128 lanes of a 1024 x 128 block, read at row r. -/
theorem laneSum_apply (y : FVec Ideal S1024x128 .f32) (r : Fin 1024) :
    multiReduction (F := Ideal) .add [1] S1024 y 0x00000000#32 reduces_S1024x128_S1024 (.inl rfl) rfl (ix1 r)
      = ∑ d : Fin 128, y (ix2 r d) := by
  refine (Ideal.multiReduction_add_single y 0x00000000#32 reduces_S1024x128_S1024 (.inl rfl) rfl (ix1 r)).trans ?_
  refine Finset.sum_congr rfl fun d _ => congrArg y (funext fun c => Fin.ext ?_)
  match c with
  | ⟨0, _⟩ => rfl
  | ⟨1, _⟩ => rfl

/-- The squared norms of a block's rows as a 1024 x 1 column. -/
def sqCol (x : FVec Ideal S1024x128 .f32) : FVec Ideal S1024x1 .f32 :=
  shapeCast S1024x1 (multiReduction (F := Ideal) .add [1] S1024 (mulf x x) 0x00000000#32 reduces_S1024x128_S1024 (.inl rfl) rfl)
    shapeCasts_S1024_S1024x1

theorem sqCol_apply (x : FVec Ideal S1024x128 .f32) (r : Fin 1024) (u : Fin 1) :
    sqCol x (ix2 r u) = ∑ d : Fin 128, x (ix2 r d) * x (ix2 r d) := by
  unfold sqCol
  refine (shapeCast_a_a1_apply _ shapeCasts_S1024_S1024x1 r u).trans ?_
  exact laneSum_apply (mulf x x) r

/-! ## The two matrix products -/

/-- The first product contracts the lane axis of both operands: its left operand is read at the
    output's row, -/
theorem lhs_gram_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- and at the contraction coordinate on its lanes; -/
theorem lhs_gram_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
/-- its right operand is read at the row the output's column names, -/
theorem rhs_gram_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
/-- and at the contraction coordinate on its lanes. -/
theorem rhs_gram_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The first product into a zero accumulator, at (p, q): the inner product of row p of the left
    operand and row q of the right one. -/
theorem gram_apply (l r : FVec Ideal S1024x128 .bf16) (p q : Fin 1024) :
    matmul dot_S1024x128_S1024x128_S1024x1024_1_1_0_0_n_n none l r (constant (F := Ideal) S1024x1024 .f32 0x00000000#32) (ix2 p q)
      = ∑ d : Fin 128, l (ix2 p d) * r (ix2 q d) := by
  simp only [matmul]
  rw [Ideal.matmul_constant_zero_apply, ← Equiv.sum_comp (contrEquiv1 dot_S1024x128_S1024x128_S1024x1024_1_1_0_0_n_n 128 rfl rfl).symm]
  refine Finset.sum_congr rfl fun d _ => ?_
  have hk := contrEquiv1_symm_val dot_S1024x128_S1024x128_S1024x1024_1_1_0_0_n_n 128 rfl rfl d
  have el : dot_S1024x128_S1024x128_S1024x1024_1_1_0_0_n_n.lhsIdx (ix2 p q) ((contrEquiv1 dot_S1024x128_S1024x128_S1024x1024_1_1_0_0_n_n 128 rfl rfl).symm d) = ix2 p d := funext fun a => Fin.ext (by
    match a with
    | ⟨0, _⟩ => exact lhs_gram_0 _ _
    | ⟨1, _⟩ => exact (lhs_gram_1 _ _).trans hk)
  have er : dot_S1024x128_S1024x128_S1024x1024_1_1_0_0_n_n.rhsIdx (ix2 p q) ((contrEquiv1 dot_S1024x128_S1024x128_S1024x1024_1_1_0_0_n_n 128 rfl rfl).symm d) = ix2 q d := funext fun a => Fin.ext (by
    match a with
    | ⟨0, _⟩ => exact rhs_gram_0 _ _
    | ⟨1, _⟩ => exact (rhs_gram_1 _ _).trans hk)
  rw [el, er]

/-- The second product contracts the left operand's columns against the right operand's rows: its
    left operand is read at the output's row, -/
theorem lhs_csum_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- and at the contraction coordinate on its columns; -/
theorem lhs_csum_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- its right operand is read at the contraction coordinate on its rows, -/
theorem rhs_csum_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- and at the output's column. -/
theorem rhs_csum_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The second product into a zero accumulator, at (p, k): the sum over the 1024 contraction
    positions of the left operand's row p times the right operand's column k. -/
theorem csum_apply (l : FVec Ideal S1024x1024 .bf16) (r : FVec Ideal S1024x128 .bf16) (p : Fin 1024) (k : Fin 128) :
    matmul dot_S1024x1024_S1024x128_S1024x128_1_0_0_1_n_n none l r (constant (F := Ideal) S1024x128 .f32 0x00000000#32) (ix2 p k)
      = ∑ jj : Fin 1024, l (ix2 p jj) * r (ix2 jj k) := by
  simp only [matmul]
  rw [Ideal.matmul_constant_zero_apply, ← Equiv.sum_comp (contrEquiv1 dot_S1024x1024_S1024x128_S1024x128_1_0_0_1_n_n 1024 rfl rfl).symm]
  refine Finset.sum_congr rfl fun jj _ => ?_
  have hk := contrEquiv1_symm_val dot_S1024x1024_S1024x128_S1024x128_1_0_0_1_n_n 1024 rfl rfl jj
  have el : dot_S1024x1024_S1024x128_S1024x128_1_0_0_1_n_n.lhsIdx (ix2 p k) ((contrEquiv1 dot_S1024x1024_S1024x128_S1024x128_1_0_0_1_n_n 1024 rfl rfl).symm jj) = ix2 p jj := funext fun a => Fin.ext (by
    match a with
    | ⟨0, _⟩ => exact lhs_csum_0 _ _
    | ⟨1, _⟩ => exact (lhs_csum_1 _ _).trans hk)
  have er : dot_S1024x1024_S1024x128_S1024x128_1_0_0_1_n_n.rhsIdx (ix2 p k) ((contrEquiv1 dot_S1024x1024_S1024x128_S1024x128_1_0_0_1_n_n 1024 rfl rfl).symm jj) = ix2 jj k := funext fun a => Fin.ext (by
    match a with
    | ⟨0, _⟩ => exact (rhs_csum_0 _ _).trans hk
    | ⟨1, _⟩ => exact rhs_csum_1 _ _)
  rw [el, er]

/-! ## The distance table -/

/-- The distances of a block of query rows against a block of key rows: the query rows' squared norms
    down the rows plus the key rows' squared norms along the columns, less twice the inner products,
    cut below at zero, under the square root. -/
def distTab (xq xk : FVec Ideal S1024x128 .f32) : FVec Ideal S1024x1024 .f32 :=
  sqrt (maximumf
    (subf
      (addf (broadcastTo S1024x1024 (sqCol xq) broadcasts_S1024x1_S1024x1024)
        (broadcastTo S1024x1024 (transpose S1x1024 [1, 0] (sqCol xk) transposes_S1024x1_p1_0_S1x1024) broadcasts_S1x1024_S1024x1024))
      (mulf (broadcast S1024x1024 (Scalar.ofBits (F := Ideal) .f32 0x40000000#32))
        (matmul dot_S1024x128_S1024x128_S1024x1024_1_1_0_0_n_n none (truncf .bf16 xq bitsLt_bf16_f32) (truncf .bf16 xk bitsLt_bf16_f32)
          (constant (F := Ideal) S1024x1024 .f32 0x00000000#32))))
    (broadcast S1024x1024 (Scalar.ofBits (F := Ideal) .f32 0x00000000#32)))

theorem distTab_apply (xq xk : FVec Ideal S1024x128 .f32) (r jj : Fin 1024) :
    distTab xq xk (ix2 r jj)
      = Ideal.sqrt (max (((∑ d : Fin 128, xq (ix2 r d) * xq (ix2 r d)) + (∑ d : Fin 128, xk (ix2 jj d) * xk (ix2 jj d)))
                          - Ideal.ofBits .f32 0x40000000#32 * (∑ d : Fin 128, xq (ix2 r d) * xk (ix2 jj d))) 0) := by
  unfold distTab
  show Ideal.sqrt (max
      ((broadcastTo S1024x1024 (sqCol xq) broadcasts_S1024x1_S1024x1024 (ix2 r jj)
          + broadcastTo S1024x1024 (transpose S1x1024 [1, 0] (sqCol xk) transposes_S1024x1_p1_0_S1x1024) broadcasts_S1x1024_S1024x1024 (ix2 r jj))
        - Ideal.ofBits .f32 0x40000000#32
          * matmul dot_S1024x128_S1024x128_S1024x1024_1_1_0_0_n_n none (truncf .bf16 xq bitsLt_bf16_f32) (truncf .bf16 xk bitsLt_bf16_f32)
              (constant (F := Ideal) S1024x1024 .f32 0x00000000#32) (ix2 r jj))
      (Ideal.ofBits .f32 0x00000000#32)) = _
  rw [broadcastTo_a1_ab_apply, broadcastTo_1b_ab_apply, transpose_ix2_apply, sqCol_apply, sqCol_apply, gram_apply,
    Ideal.ofBits_zero_f32]
  rfl

/-! ## The two stored values -/

/-- The second stored value is the running sum plus the second product of the distance table with
    the class indicators; the outer and the inner shape cast change nothing. -/
theorem k0_pay2_eq (xq xk oh acc : Vec Ideal S1024x128 .f32) :
    Gen.k0_pay2 (F := Ideal) xq xk oh acc
      = shapeCast S1024x128
          (addf acc
            (matmul dot_S1024x1024_S1024x128_S1024x128_1_0_0_1_n_n none (truncf .bf16 (distTab xq xk) bitsLt_bf16_f32)
              (truncf .bf16 (shapeCast S1024x128 oh shapeCasts_S1024x128_S1024x128) bitsLt_bf16_f32)
              (constant (F := Ideal) S1024x128 .f32 0x00000000#32)))
          shapeCasts_S1024x128_S1024x128 := rfl

/-- The first stored value is zero at every entry. -/
theorem zero_block_apply (y : S1024x128.Idx) : Gen.k0_pay1 (F := Ideal) y = 0 := by
  show shapeCast S1024x128 (broadcast S1024x128 (Scalar.ofBits (F := Ideal) .f32 0x00000000#32)) shapeCasts_S1024x128_S1024x128 y = 0
  rw [shapeCast_self]
  exact Ideal.ofBits_zero_f32

/-- The second stored value at row r and class k: the running sum there plus, over the 1024 key
    rows, the distance of query row r to the key row times the key row's indicator of class k. -/
theorem step_block_apply (xq xk oh acc : Vec Ideal S1024x128 .f32) (r : Fin 1024) (k : Fin 128) :
    Gen.k0_pay2 (F := Ideal) xq xk oh acc (ix2 r k)
      = acc (ix2 r k)
        + ∑ jj : Fin 1024,
            Ideal.sqrt (max (((∑ d : Fin 128, xq (ix2 r d) * xq (ix2 r d)) + (∑ d : Fin 128, xk (ix2 jj d) * xk (ix2 jj d)))
                            - Ideal.ofBits .f32 0x40000000#32 * (∑ d : Fin 128, xq (ix2 r d) * xk (ix2 jj d))) 0)
              * oh (ix2 jj k) := by
  rw [k0_pay2_eq, shapeCast_self, addf_apply, csum_apply]
  refine congrArg (acc (ix2 r k) + ·) (Finset.sum_congr rfl fun jj _ => ?_)
  show distTab xq xk (ix2 r jj) * shapeCast S1024x128 oh shapeCasts_S1024x128_S1024x128 (ix2 jj k) = _
  rw [distTab_apply, shapeCast_self]

end Cert.PayloadAt

end
-- ==== Proof.KernelValue.lean ====
import proofs.«110028_j32676111188224_2_alg».proof.Proof.KI.Setup
import proofs.«110028_j32676111188224_2_alg».proof.Proof.Spec
import proofs.«110028_j32676111188224_2_alg».proof.Proof.PayloadAt
import Idealize.ShloMosaic.Lib.Pipeline.Value
import Idealize.ShloMosaic.Lib.ValueIdx
import Mathlib.Algebra.BigOperators.Fin
import Mathlib.Data.Fintype.BigOperators

/-! The output array of the pairwise-distance kernel, entry by entry.

The 8192 points are cut into 8 blocks of 1024. At the grid point with row block a and column block b
the kernel adds to its scratch, for each row r of block a and each table column k, the sum over the
1024 points j of block b of dist(a·1024 + r, j) · table(j, k); the scratch starts from zero at b = 0.
So after column block b the scratch holds the contributions of the column blocks 0 to b (induction
on the grid point), and at b = 7 these are all 8192 points: regrouping a finite sum of extended
reals by blocks uses only commutativity and associativity of addition. The scratch is written back
exactly at b = 7, into rows a·1024 … a·1024 + 1023 of the output, and the eight write-backs cover
every row; so the output array holds, at (i, k), point i's distance sum against table column k. -/

set_option maxRecDepth 16384

noncomputable section

namespace Cert.KernelValue

open Cert.KernelIdeal Cert.KernelIdeal.Gen Cert.KernelIdeal.Hand Idealize.ShloMosaic ValueIdx

/-! ## Regrouping the 8192 points into 8 blocks of 1024 -/

/-- Point r of block b (blocks counted modulo 8, so that the map is total). -/
def row (b : ℕ) (r : Fin 1024) : Fin 8192 :=
  ⟨b % 8 * 1024 + r.val, by have := r.isLt; have := Nat.mod_lt b (show 8 > 0 by decide); omega⟩

theorem row_val (b : ℕ) (r : Fin 1024) : (row b r).val = b % 8 * 1024 + r.val := rfl

/-- A point is a block and a place inside it. -/
def blockEquiv : Fin 8 × Fin 1024 ≃ Fin 8192 where
  toFun p := row p.1.val p.2
  invFun j := (⟨j.val / 1024, by have := j.isLt; omega⟩, ⟨j.val % 1024, Nat.mod_lt _ (by decide)⟩)
  left_inv p := by
    obtain ⟨⟨a, ha⟩, ⟨r, hr⟩⟩ := p
    refine Prod.ext (Fin.ext ?_) (Fin.ext ?_)
    · show (a % 8 * 1024 + r) / 1024 = a; omega
    · show (a % 8 * 1024 + r) % 1024 = r; omega
  right_inv j := by
    apply Fin.ext
    show j.val / 1024 % 8 * 1024 + j.val % 1024 = j.val
    have := j.isLt; omega

/-- What column block b contributes to point i's distance sum against class k. -/
def colTerm (x : Fin 8192 → Fin 128 → EReal) (oh : Fin 8192 → Fin 128 → EReal) (i : Fin 8192) (k : Fin 128) (b : ℕ) : EReal :=
  ∑ jj : Fin 1024, Cert.Spec.dist x i (row b jj) * oh (row b jj) k

/-- The eight column blocks' contributions make up the whole distance sum: a regrouping of a finite sum. -/
theorem sum_colTerm (x : Fin 8192 → Fin 128 → EReal) (oh : Fin 8192 → Fin 128 → EReal) (i : Fin 8192) (k : Fin 128) :
    ∑ b ∈ Finset.range 8, colTerm x oh i k b = Cert.Spec.distSum x oh i k := by
  unfold colTerm Cert.Spec.distSum
  rw [Finset.sum_range, ← Fintype.sum_prod_type']
  exact Equiv.sum_comp blockEquiv (fun j => Cert.Spec.dist x i j * oh j k)

variable (m : (ℓ : Loc nD τ sig) → Buf (Elt Ideal) ℓ)

/-! ## The blocks as rows of their arrays -/

/-- The block index of each window at each grid point: the row block for the query rows and the
    output, the column block for the key rows and the class table. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

/-- The feature array and the padded class table as the region finds them. -/
abbrev feat (c : Dev nD) : S8192x128.Idx → EReal := entryAt m c main_arg0
abbrev hot (c : Dev nD) : S8192x128.Idx → EReal := entryAt m c main_v0
/-- The three input blocks at a grid point. -/
abbrev qblk (c : Dev nD) (t : Fin cfg0.N) : Vec Ideal S1024x128 .f32 := blk m c 0 t
abbrev kblk (c : Dev nD) (t : Fin cfg0.N) : Vec Ideal S1024x128 .f32 := blk m c 1 t
abbrev hblk (c : Dev nD) (t : Fin cfg0.N) : Vec Ideal S1024x128 .f32 := blk m c 2 t
/-- The same arrays by point and coordinate. -/
abbrev X (c : Dev nD) : Fin 8192 → Fin 128 → EReal := fun a d => feat m c (ix2 a d)
abbrev H (c : Dev nD) : Fin 8192 → Fin 128 → EReal := fun j q => hot m c (ix2 j q)

theorem qblk_apply (c : Dev nD) (t : Fin cfg0.N) (y : S1024x128.Idx) (i : S8192x128.Idx)
    (h0 : (i 0).val = t.val / 8 * 1024 + (y 0).val) (h1 : (i 1).val = (y 1).val) :
    qblk m c t y = feat m c i := by
  obtain ⟨e0, e1, -⟩ := idx_facts t
  unfold qblk blk
  rw [View.read_apply]
  show feat m c _ = feat m c i
  congr 1
  funext a
  apply Fin.ext
  match a with
  | ⟨0, _⟩ => show win0_0.index t 0 * 1024 + 1 * (y 0).val = (i 0).val; rw [e0, h0]; omega
  | ⟨1, _⟩ => show win0_0.index t 1 * 128 + 1 * (y 1).val = (i 1).val; rw [e1, h1]; omega

theorem kblk_apply (c : Dev nD) (t : Fin cfg0.N) (y : S1024x128.Idx) (i : S8192x128.Idx)
    (h0 : (i 0).val = t.val % 8 * 1024 + (y 0).val) (h1 : (i 1).val = (y 1).val) :
    kblk m c t y = feat m c i := by
  obtain ⟨-, -, e0, e1, -⟩ := idx_facts t
  unfold kblk blk
  rw [View.read_apply]
  show feat m c _ = feat m c i
  congr 1
  funext a
  apply Fin.ext
  match a with
  | ⟨0, _⟩ => show win0_1.index t 0 * 1024 + 1 * (y 0).val = (i 0).val; rw [e0, h0]; omega
  | ⟨1, _⟩ => show win0_1.index t 1 * 128 + 1 * (y 1).val = (i 1).val; rw [e1, h1]; omega

theorem hblk_apply (c : Dev nD) (t : Fin cfg0.N) (y : S1024x128.Idx) (i : S8192x128.Idx)
    (h0 : (i 0).val = t.val % 8 * 1024 + (y 0).val) (h1 : (i 1).val = (y 1).val) :
    hblk m c t y = hot m c i := by
  obtain ⟨-, -, -, -, e0, e1, -⟩ := idx_facts t
  unfold hblk blk
  rw [View.read_apply]
  show hot m c _ = hot m c i
  congr 1
  funext a
  apply Fin.ext
  match a with
  | ⟨0, _⟩ => show win0_2.index t 0 * 1024 + 1 * (y 0).val = (i 0).val; rw [e0, h0]; omega
  | ⟨1, _⟩ => show win0_2.index t 1 * 128 + 1 * (y 1).val = (i 1).val; rw [e1, h1]; omega

/-- The same three reads with the row named by its block and place. -/
theorem qblk_at (c : Dev nD) (n : ℕ) (h : n < cfg0.N) (r : Fin 1024) (q : Fin 128) :
    qblk m c ⟨n, h⟩ (ix2 r q) = X m c (row (n / 8) r) q :=
  qblk_apply m c ⟨n, h⟩ (ix2 r q) (ix2 (row (n / 8) r) q)
    (by have hN : cfg0.N = 64 := N_0
        show n / 8 % 8 * 1024 + r.val = n / 8 * 1024 + r.val; omega) rfl
theorem kblk_at (c : Dev nD) (n : ℕ) (h : n < cfg0.N) (r : Fin 1024) (q : Fin 128) :
    kblk m c ⟨n, h⟩ (ix2 r q) = X m c (row (n % 8) r) q :=
  kblk_apply m c ⟨n, h⟩ (ix2 r q) (ix2 (row (n % 8) r) q)
    (by show n % 8 % 8 * 1024 + r.val = n % 8 * 1024 + r.val; omega) rfl
theorem hblk_at (c : Dev nD) (n : ℕ) (h : n < cfg0.N) (r : Fin 1024) (q : Fin 128) :
    hblk m c ⟨n, h⟩ (ix2 r q) = H m c (row (n % 8) r) q :=
  hblk_apply m c ⟨n, h⟩ (ix2 r q) (ix2 (row (n % 8) r) q)
    (by show n % 8 % 8 * 1024 + r.val = n % 8 * 1024 + r.val; omega) rfl

/-! ## The scratch after each point -/

/-- One point's update of the scratch, read at an entry: the running value plus the contribution of
    the point's column block to the point's row block. -/
theorem step_at (c : Dev nD) (n : ℕ) (h : n < cfg0.N) (acc : Vec Ideal S1024x128 .f32) (r : Fin 1024) (k : Fin 128) :
    k0_pay2 (F := Ideal) (qblk m c ⟨n, h⟩) (kblk m c ⟨n, h⟩) (hblk m c ⟨n, h⟩) acc (ix2 r k)
      = acc (ix2 r k) + colTerm (X m c) (H m c) (row (n / 8) r) k (n % 8) := by
  refine (Cert.PayloadAt.step_block_apply (qblk m c ⟨n, h⟩) (kblk m c ⟨n, h⟩) (hblk m c ⟨n, h⟩) acc r k).trans ?_
  refine congrArg (fun z => acc (ix2 r k) + z) ?_
  refine Finset.sum_congr rfl fun jj _ => ?_
  simp only [qblk_at, kblk_at, hblk_at]
  rfl

/-- After the point with row block a and column block b the scratch holds, for each row of block a,
    the contributions of the column blocks 0 to b. -/
theorem acc_eq (c : Dev nD) (n : ℕ) : ∀ (h : n < cfg0.N) (r : Fin 1024) (k : Fin 128),
    accAt m c n h (ix2 r k) = ∑ b ∈ Finset.range (n % 8 + 1), colTerm (X m c) (H m c) (row (n / 8) r) k b := by
  induction n using Nat.strong_induction_on with
  | _ n ih =>
    intro h r k
    by_cases h0 : n % 8 = 0
    · refine (congrFun (accAt_first m c ⟨n, h⟩ h0) (ix2 r k)).trans ?_
      refine (step_at m c n h (k0_pay1 (F := Ideal)) r k).trans ?_
      rw [Cert.PayloadAt.zero_block_apply, zero_add, h0, Finset.sum_range_one]
    · refine (congrFun (accAt_later m c ⟨n, h⟩ h0) (ix2 r k)).trans ?_
      refine (step_at m c n h _ r k).trans ?_
      have e1 : (n - 1) / 8 = n / 8 := by omega
      have e2 : (n - 1) % 8 + 1 = n % 8 := by omega
      rw [Finset.sum_range_succ]
      refine congrArg (fun z => z + colTerm (X m c) (H m c) (row (n / 8) r) k (n % 8)) ?_
      refine (ih (n - 1) (by omega) _ r k).trans ?_
      rw [e1, e2]

/-! ## From the write-backs to the output array -/

/-- What the output array ends holding: each row's distance sums against the 128 table columns. -/
abbrev G (c : Dev nD) : S8192x128.Idx → EReal := fun i => Cert.Spec.distSum (X m c) (H m c) (i 0) (i 1)

/-- On a last column block the scratch holds the whole distance sums of its row block. -/
theorem acc_last (c : Dev nD) (t : Fin cfg0.N) (h7 : t.val % 8 = 7) (y : S1024x128.Idx) (i : S8192x128.Idx)
    (h0 : (i 0).val = t.val / 8 * 1024 + (y 0).val) (h1 : (i 1).val = (y 1).val) :
    accAt m c t.val t.isLt y = G m c i := by
  have hN : cfg0.N = 64 := N_0
  have ht := t.isLt
  obtain ⟨r, k, rfl⟩ : ∃ (r : Fin 1024) (k : Fin 128), y = ix2 r k := ⟨y 0, y 1, eq_ix2 y⟩
  obtain ⟨a, q, rfl⟩ : ∃ (a : Fin 8192) (q : Fin 128), i = ix2 a q := ⟨i 0, i 1, eq_ix2 i⟩
  have ea : a = row (t.val / 8) r := Fin.ext (by
    show a.val = t.val / 8 % 8 * 1024 + r.val
    have : a.val = t.val / 8 * 1024 + r.val := h0
    omega)
  have eq : q = k := Fin.ext h1
  subst ea eq
  rw [acc_eq m c t.val t.isLt r q, h7]
  exact sum_colTerm (X m c) (H m c) (row (t.val / 8) r) q

/-- What a write-back point writes is its block of that array. -/
theorem flushed_eq (c : Dev nD) (t : Fin cfg0.N) (hf : (cfg0.win 3).flush t = true) :
    (dats (F := Ideal) m 0 c).flushed 3 t = ((cfg0.win 3).blk t).view.read (Elt Ideal) (G m c) := by
  have h7 : t.val % 8 = 7 := (flush0_3 t).mp hf
  obtain ⟨-, -, -, -, -, -, e0, e1⟩ := idx_facts t
  show (cfg0.win 3).cut (grid0.coords t) ((dats (F := Ideal) m 0 c).after 3 t) = _
  rw [after3]
  funext y
  show accAt m c t.val t.isLt y = G m c (((cfg0.win 3).blk t).view.emb y)
  refine acc_last m c t h7 y _ ?_ ?_
  · show win0_3.index t 0 * 1024 + 1 * (y 0).val = t.val / 8 * 1024 + (y 0).val; rw [e0]; omega
  · show win0_3.index t 1 * 128 + 1 * (y 1).val = (y 1).val; rw [e1]; omega

/-- An index lies in a point's output block iff each coordinate lies in the block's range. -/
theorem mem_blk (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v2).slice (win0_3.rect t)).set ↔ _
  rw [View.set_slice_whole, Rect.mem_set_unit]
  exact Iff.rfl

/-- Row i of the output lies in the block written back at the last column block of its row block. -/
theorem covered (i : S8192x128.Idx) :
    ∃ t : Fin cfg0.N, (cfg0.win 3).flush t = true ∧ i ∈ ((cfg0.win 3).blk t).view.set := by
  have hN : cfg0.N = 64 := N_0
  have hi0 : (i 0).val < 8192 := (i 0).isLt
  have hi1 : (i 1).val < 128 := (i 1).isLt
  let t : Fin cfg0.N := ⟨(i 0).val / 1024 * 8 + 7, by omega⟩
  have htv : t.val = (i 0).val / 1024 * 8 + 7 := rfl
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 128 ≤ (i 1).val ∧ (i 1).val < win0_3.index t (1 : Fin 2) * 128 + 128; rw [e1]; omega

/-- The output array after every write-back. -/
theorem final (c : Dev nD) : (dats (F := Ideal) m 0 c).arrAt 3 cfg0.N = G m c :=
  (dats (F := Ideal) m 0 c).arrAt_eq_of_cover 3 (G m c) (fun t hf => flushed_eq m c t hf) covered

/-- The output array at row i and column k is point i's distance sum against table column k. -/
theorem out_apply (c : Dev nD) (i : Fin 8192) (k : Fin 128) :
      (dats (F := Ideal) m 0 c).arrAt 3 cfg0.N (ix2 i k)
        = Cert.Spec.distSum (fun a d => (entryAt m c main_arg0 : S8192x128.Idx → EReal) (ix2 a d))
                            (fun j q => (entryAt m c main_v0 : S8192x128.Idx → EReal) (ix2 j q)) i k :=
  congrFun (final m c) (ix2 i k)

end Cert.KernelValue

end
-- ==== Proof.RefTail.lean ====
import proofs.«110028_j32676111188224_2_alg».proof.Proof.Tail
import proofs.«110028_j32676111188224_2_alg».proof.Proof.RefReadP

/-! The reference's last stretch is the score function.

From its distance sums on, the reference applies to them, to its class counts, to its class
indicator table and to the labels the same array operations, in the same order and with the same
float and integer literals, as the chain `Cert.Tail.score` is made of. The two programs name their
shapes and side conditions apart, but the shapes are abbreviations of the same literals and a side
condition is a proposition, so the reference's last stage and the score of its own three
intermediate arrays are one term once the stage definitions are opened: the equation holds by
computation, for every float family. -/

noncomputable section

namespace Cert.RefTail

open Idealize.ShloMosaic

variable {F : FTy → Type} [FloatOps F] [Cert.KernelIdeal.Facts₀]

/-- The reference's result is the score of its distance sums (stage 22), its class counts (stage 1)
    and its class indicator table (stage 0), at the labels. -/
theorem ref_score (x : (⟨Cert.ReferenceIdeal.S8192x128, .f32⟩ : BufTy).Contents (Elt F))
    (lab : (⟨Cert.ReferenceIdeal.S8192, .i32⟩ : BufTy).Contents (Elt F)) :
    Cert.ReferenceIdeal.ReadP.val_main_v71 (F := F) x lab
      = Cert.Tail.score (Cert.ReferenceIdeal.ReadP.val_main_v22 (F := F) x lab)
          (Cert.ReferenceIdeal.ReadP.val_main_v1 (F := F) lab)
          (Cert.ReferenceIdeal.ReadP.val_main_v0 (F := F) lab) lab :=
  rfl

end Cert.RefTail

end
-- ==== Proof.RefDist.lean ====
import proofs.«110028_j32676111188224_2_alg».proof.Proof.RefReadP
import proofs.«110028_j32676111188224_2_alg».proof.Proof.Spec
import proofs.«110028_j32676111188224_2_alg».proof.Proof.Tail
import proofs.«110028_j32676111188224_2_alg».proof.Proof.Gen.KernelIdeal
import Idealize.ShloMosaic.Lib.IdealHost

/-! The reference program's distance table and per-class distance sums, read entry by entry.

The reference builds the squared distance of points i and j from the row sums of squares, broadcast
along both axes, less twice the product of the point matrix with its transpose; cuts it below at zero;
and takes the square root through a mask: the root of the value where it is positive, of one elsewhere,
times the indicator of positivity. Entry by entry this is the plain square root of the cut value,
because the cut value is never negative, the root of zero is zero, and a product with zero vanishes.
The per-class sums are then one matrix product with the class indicator table.

The second half relates the class indicator table over 128 columns, of which the kernel side uses the
first 64, to the reference's table over 64 columns, and likewise the column sums. -/

noncomputable section

namespace Cert.RefDist

open Idealize.ShloMosaic ValueIdx
open Cert.ReferenceIdeal Cert.ReferenceIdeal.ReadP

/-- The masked square root. For y ≥ 0 the reference takes the root of y where y is positive and of
    one elsewhere, and multiplies by the indicator of y being positive. Where y > 0 the indicator is one
    and the two agree; elsewhere y = 0, the indicator is zero, a product with zero vanishes whatever the
    other factor is, and the root of zero is zero. -/
theorem sqrt_mask (y : EReal) (hy : 0 ≤ y) :
    Ideal.sqrt (Scalar.select (Ideal.cmp .ogt y 0) y 1) * (((Ideal.cmp .ogt y 0).toNat : ℝ) : EReal)
      = Ideal.sqrt y := by
  by_cases h : 0 < y
  · have hc : Ideal.cmp .ogt y 0 = 1#1 := by simp [Ideal.cmp, h]
    rw [hc]
    simp [Scalar.select]
  · have h0 : y = 0 := le_antisymm (not_lt.mp h) hy
    subst h0
    have hc : Ideal.cmp .ogt (0 : EReal) 0 = 0#1 := by simp [Ideal.cmp]
    rw [hc]
    simp [Scalar.select, Cert.Spec.sqrt_zero]

/-- The reference's row sum of squares at row i is the squared norm of point i: the sum starts from
    the zero word, which adds nothing. -/
theorem ref_sqn (x : (⟨S8192x128, .f32⟩ : BufTy).Contents (Elt Ideal)) (i : Fin 8192) :
    val_main_v3 (F := Ideal) x (ix1 i) = Cert.Spec.sqn (fun a d => x (ix2 a d)) i := by
  rw [val_main_v3_apply]
  simp only [val_main_cst_0_apply, val_main_v2_apply, Ideal.ofBits_def, Ideal.ofBits_zero_f32, zero_add,
    Ideal.mulf_def]
  unfold Cert.Spec.sqn
  refine Finset.sum_congr rfl fun d _ => ?_
  have e : idx_main_v3 (ix1 i) d = ix2 i d :=
    funext fun a => Fin.ext (by match a with | ⟨0, _⟩ => rfl | ⟨1, _⟩ => rfl)
  rw [e]

/-- The reference's product of the points with their transpose at (i, j) is the inner product of
    points i and j. -/
theorem ref_dotp (x : (⟨S8192x128, .f32⟩ : BufTy).Contents (Elt Ideal)) (i j : Fin 8192) :
    val_main_v10 (F := Ideal) x (ix2 i j) = Cert.Spec.dotp (fun a d => x (ix2 a d)) i j := by
  rw [val_main_v10_apply]
  unfold Cert.Spec.dotp
  refine Finset.sum_congr rfl fun d _ => ?_
  rw [val_main_v9_apply]
  have el : lidx_main_v10 (ix2 i j) d = ix2 i d :=
    funext fun a => Fin.ext (by match a with | ⟨0, _⟩ => rfl | ⟨1, _⟩ => rfl)
  have er : idx_main_v9 (ridx_main_v10 (ix2 i j) d) = ix2 j d :=
    funext fun a => Fin.ext (by match a with | ⟨0, _⟩ => rfl | ⟨1, _⟩ => rfl)
  rw [el, er]

/-- The reference's squared distance at (i, j): the row's squared norm broadcast along the columns plus
    the column's squared norm broadcast along the rows, less the literal two times the inner product. -/
theorem ref_d2 (x : (⟨S8192x128, .f32⟩ : BufTy).Contents (Elt Ideal)) (i j : Fin 8192) :
    val_main_v13 (F := Ideal) x (ix2 i j) = Cert.Spec.d2 (fun a d => x (ix2 a d)) i j := by
  have e6 : idx_main_v4 (idx_main_v6 (ix2 i j)) = ix1 i :=
    funext fun a => Fin.ext (by match a with | ⟨0, _⟩ => rfl)
  have e7 : idx_main_v5 (idx_main_v7 (ix2 i j)) = ix1 j :=
    funext fun a => Fin.ext (by match a with | ⟨0, _⟩ => rfl)
  rw [val_main_v13_apply, val_main_v8_apply, val_main_v12_apply, val_main_v6_apply, val_main_v4_apply,
    val_main_v7_apply, val_main_v5_apply, val_main_v11_apply, e6, e7, ref_sqn, ref_sqn, ref_dotp]
  simp only [val_main_cst_1_apply, Ideal.ofBits_def, Ideal.addf_def, Ideal.subf_def, Ideal.mulf_def]
  rfl

/-- The reference's masked distance at (i, j) is the distance of points i and j. -/
theorem ref_dist (x : (⟨S8192x128, .f32⟩ : BufTy).Contents (Elt Ideal)) (i j : Fin 8192) :
    val_main_v21 (F := Ideal) x (ix2 i j) = Cert.Spec.dist (fun a d => x (ix2 a d)) i j := by
  rw [val_main_v21_apply, val_main_v19_apply, val_main_v20_apply, val_main_v18_apply, val_main_v17_apply,
    val_main_v15_apply, val_main_v16_apply, val_main_v14_apply, val_main_call1_v1_apply, ref_d2]
  simp only [val_main_cst_2_apply, val_main_cst_3_apply, val_main_call1_v0_apply, val_main_cst_4_apply,
    Ideal.ofBits_def, Ideal.ofBits_zero_f32, Ideal.ofBits_one_f32, Ideal.mulf_def, Ideal.maximumf_def,
    Ideal.hostUnary_sqrt_def, Ideal.cmpf_def]
  exact sqrt_mask _ (le_max_right _ _)

/-- The reference's per-class distance sums: its last matrix product at (i, k) is the sum over all
    points j of the distance from i to j times the class indicator of j at k. -/
theorem ref_S_apply (x : (⟨S8192x128, .f32⟩ : BufTy).Contents (Elt Ideal))
    (lab : (⟨S8192, .i32⟩ : BufTy).Contents (Elt Ideal)) (i : Fin 8192) (k : Fin 64) :
    val_main_v22 (F := Ideal) x lab (ix2 i k)
      = Cert.Spec.distSum (fun a d => x (ix2 a d)) (fun j q => val_main_v0 (F := Ideal) lab (ix2 j q)) i k := by
  rw [val_main_v22_apply]
  unfold Cert.Spec.distSum
  refine Finset.sum_congr rfl fun j _ => ?_
  have el : lidx_main_v22 (ix2 i k) j = ix2 i j :=
    funext fun a => Fin.ext (by match a with | ⟨0, _⟩ => rfl | ⟨1, _⟩ => rfl)
  have er : ridx_main_v22 (ix2 i k) j = ix2 j k :=
    funext fun a => Fin.ext (by match a with | ⟨0, _⟩ => rfl | ⟨1, _⟩ => rfl)
  rw [el, er, ref_dist]

/-! ## The class indicator table over 128 columns against the one over 64 -/

/-- The 128-column indicator table at (j, c): the truth value of "label j equals c" read as a float.
    The labels are broadcast along the columns and the column numbers along the rows. -/
theorem onehot128_apply (lab : (⟨Cert.KernelIdeal.S8192, .i32⟩ : BufTy).Contents (Elt Ideal)) (j : Fin 8192) (c : Fin 128) :
    Cert.Tail.onehot128 (F := Ideal) lab (ix2 j c)
      = FloatOps.uitofp (F := Ideal) .f32 (IntOp.cmpi .eq (lab (ix1 j)) (BitVec.ofNat 32 c.val)) := by
  unfold Cert.Tail.onehot128
  have e1 : broadcastInDim Cert.KernelIdeal.S8192x128 ![0, 1] Cert.KernelIdeal.Facts₀.bcast_S8192x1_S8192x128_0_1
      (broadcastInDim Cert.KernelIdeal.S8192x1 ![0] Cert.KernelIdeal.Facts₀.bcast_S8192_S8192x1_0 lab) (ix2 j c) = lab (ix1 j) := by
    refine (broadcastInDim_apply _ Cert.KernelIdeal.Facts₀.bcast_S8192x1_S8192x128_0_1 _ (ix2 j c) (ix2 j (0 : Fin 1))
      (fun a => ?_)).trans ?_
    · match a with
      | ⟨0, _⟩ => show j.val = if (8192 : Nat) = 1 then 0 else j.val; rw [if_neg (by decide)]
      | ⟨1, _⟩ => show 0 = if (1 : Nat) = 1 then 0 else c.val; rw [if_pos rfl]
    · exact broadcastInDim_apply _ Cert.KernelIdeal.Facts₀.bcast_S8192_S8192x1_0 lab (ix2 j (0 : Fin 1)) (ix1 j) (fun a => by
        match a with
        | ⟨0, _⟩ => show j.val = if (8192 : Nat) = 1 then 0 else j.val; rw [if_neg (by decide)])
  have e2 : broadcastInDim Cert.KernelIdeal.S8192x128 ![0, 1] Cert.KernelIdeal.Facts₀.bcast_S1x128_S8192x128_0_1
      (iotaInDim Cert.KernelIdeal.S1x128 32 1) (ix2 j c) = BitVec.ofNat 32 c.val := by
    refine (broadcastInDim_apply _ Cert.KernelIdeal.Facts₀.bcast_S1x128_S8192x128_0_1 _ (ix2 j c) (ix2 (0 : Fin 1) c)
      (fun a => ?_)).trans rfl
    match a with
    | ⟨0, _⟩ => show 0 = if (1 : Nat) = 1 then 0 else j.val; rw [if_pos rfl]
    | ⟨1, _⟩ => show c.val = if (128 : Nat) = 1 then 0 else c.val; rw [if_neg (by decide)]
  show FloatOps.uitofp (F := Ideal) .f32 (IntOp.cmpi .eq _ _) = _
  rw [e1, e2]

/-- The reference's 64-column indicator table at (j, k), the same truth value. -/
theorem ref_onehot_apply (lab : (⟨S8192, .i32⟩ : BufTy).Contents (Elt Ideal)) (j : Fin 8192) (k : Fin 64) :
    val_main_v0 (F := Ideal) lab (ix2 j k)
      = FloatOps.uitofp (F := Ideal) .f32 (IntOp.cmpi .eq (lab (ix1 j)) (BitVec.ofNat 32 k.val)) := by
  have e : idx_main_call0_v0 (idx_main_call0_v2 (ix2 j k)) = ix1 j :=
    funext fun a => Fin.ext (by match a with | ⟨0, _⟩ => rfl)
  rw [val_main_v0_apply, val_main_call0_v4_apply, val_main_call0_v2_apply, val_main_call0_v0_apply,
    val_main_call0_v3_apply, val_main_call0_v1_apply, e]

/-- On the first 64 columns the two indicator tables have the same entries. -/
theorem onehot_slice (lab : (⟨Cert.KernelIdeal.S8192, .i32⟩ : BufTy).Contents (Elt Ideal)) (j : Fin 8192) (k : Fin 64) :
    Cert.Tail.onehot128 (F := Ideal) lab (ix2 j ⟨k.val, by omega⟩) = val_main_v0 (F := Ideal) lab (ix2 j k) := by
  rw [onehot128_apply, ref_onehot_apply]

/-- The 128-column table cut back to its first 64 columns is the reference's table. -/
theorem onehot_slice_eq (lab : (⟨Cert.KernelIdeal.S8192, .i32⟩ : BufTy).Contents (Elt Ideal)) :
    extractStridedSlice Cert.KernelIdeal.S8192x64 ![0, 0] (Cert.Tail.onehot128 (F := Ideal) lab)
        Cert.KernelIdeal.Facts₀.slices_S8192x128_S8192x64_0_0
      = val_main_v0 (F := Ideal) lab := by
  funext i
  obtain ⟨j, k, rfl⟩ : ∃ (j : Fin 8192) (k : Fin 64), i = ix2 j k := ⟨i 0, i 1, eq_ix2 i⟩
  refine (extractStridedSlice_apply _ _ Cert.KernelIdeal.Facts₀.slices_S8192x128_S8192x64_0_0 (ix2 j k)
    (ix2 j ⟨k.val, by omega⟩) (fun a => ?_)).trans (onehot_slice lab j k)
  match a with
  | ⟨0, _⟩ => exact (Nat.zero_add _).symm
  | ⟨1, _⟩ => exact (Nat.zero_add _).symm

/-- A column sum of the 128-column table: the sum starts from the zero word, which adds nothing. -/
theorem counts128_apply (lab : (⟨Cert.KernelIdeal.S8192, .i32⟩ : BufTy).Contents (Elt Ideal)) (c : Fin 128) :
    Cert.Tail.counts128 (F := Ideal) lab (ix1 c) = ∑ r : Fin 8192, Cert.Tail.onehot128 (F := Ideal) lab (ix2 r c) := by
  unfold Cert.Tail.counts128
  generalize Cert.Tail.onehot128 (F := Ideal) lab = y0
  simp only [Host.reduceAdd, Ideal.hostReduceAdd_def]
  rw [Ideal.hostReduceAdd_single Cert.KernelIdeal.Facts₀.reducesTo_S8192x128_S128_d0 (by decide)]
  have hz : (constant (F := Ideal) Cert.KernelIdeal.S_ .f32 0x00000000#32)
      (Shape.Idx.first Cert.KernelIdeal.Facts₀.h_S_) = 0 := Ideal.ofBits_zero_f32
  rw [hz, zero_add]
  refine Finset.sum_congr rfl fun r _ => ?_
  exact congrArg y0 (funext fun a => Fin.ext (by match a with | ⟨0, _⟩ => rfl | ⟨1, _⟩ => rfl))

/-- The column sums of the 128-column table cut back to the first 64 are the reference's column sums:
    column by column the two sums run over equal entries. -/
theorem counts_slice (lab : (⟨Cert.KernelIdeal.S8192, .i32⟩ : BufTy).Contents (Elt Ideal)) :
    extractStridedSlice Cert.KernelIdeal.S64 ![0] (Cert.Tail.counts128 (F := Ideal) lab)
        Cert.KernelIdeal.Facts₀.slices_S128_S64_0
      = val_main_v1 (F := Ideal) lab := by
  funext i
  obtain ⟨k, rfl⟩ : ∃ k : Fin 64, i = ix1 k := ⟨i 0, eq_ix1 i⟩
  refine (extractStridedSlice_apply _ _ Cert.KernelIdeal.Facts₀.slices_S128_S64_0 (ix1 k)
    (ix1 ⟨k.val, by omega⟩) (fun a => ?_)).trans ?_
  · match a with
    | ⟨0, _⟩ => exact (Nat.zero_add _).symm
  · rw [counts128_apply, val_main_v1_apply, val_main_cst_apply, Ideal.ofBits_def, Ideal.ofBits_zero_f32, zero_add]
    refine Finset.sum_congr rfl fun r _ => ?_
    have e : idx_main_v1 (ix1 k) r = ix2 r k :=
      funext fun a => Fin.ext (by match a with | ⟨0, _⟩ => rfl | ⟨1, _⟩ => rfl)
    rw [e]
    exact onehot_slice lab r k

end Cert.RefDist

end
-- ==== Proof.Bridge.lean ====
import proofs.«110028_j32676111188224_2_alg».proof.Proof.KI.Value
import proofs.«110028_j32676111188224_2_alg».proof.Proof.KernelValue
import proofs.«110028_j32676111188224_2_alg».proof.Proof.RefTail
import proofs.«110028_j32676111188224_2_alg».proof.Proof.RefDist

/-! The two programs' results are one function of the arguments.

The kernel's output array holds, at row i and column k of 128, the sum over all points j of the
distance of i and j times the class indicator of j at k; the reference's distance sums hold the same
over 64 columns, its own distance being the masked square root, which is the plain one. The
indicator table over 128 columns cut to 64 is the reference's table, and so are the column sums.
Both programs then apply the same score to these, so their results agree. -/

set_option maxRecDepth 16384

noncomputable section

namespace Cert.Bridge

open Idealize.ShloMosaic Idealize.ShloMosaic.TcCoe Idealize.SL.Sem ValueIdx
open Cert.KernelIdeal Cert.KernelIdeal.Gen Cert.KernelIdeal.Hand

variable (m : (ℓ : Loc nD τ sig) → Buf (Elt Ideal) ℓ)

/-- The kernel's distance sums, cut to the first 64 columns, are the reference's distance sums of the
    same features and labels. -/
theorem sums_cut (c : Dev nD) :
    extractStridedSlice S8192x64 ![0, 0] ((dats (F := Ideal) m 0 c).arrAt 3 cfg0.N) Facts₀.slices_S8192x128_S8192x64_0_0
      = Cert.ReferenceIdeal.ReadP.val_main_v22 (F := Ideal) (m ((c.tc : Thread nD τ).loc main_arg0)) (m ((c.tc : Thread nD τ).loc main_arg1)) := by
  funext i
  obtain ⟨j, k, rfl⟩ : ∃ (j : Fin 8192) (k : Fin 64), i = ix2 j k := ⟨i 0, i 1, eq_ix2 i⟩
  refine (extractStridedSlice_apply _ _ Facts₀.slices_S8192x128_S8192x64_0_0 (ix2 j k) (ix2 j ⟨k.val, by omega⟩) (fun a => ?_)).trans ?_
  · match a with
    | ⟨0, _⟩ => exact (Nat.zero_add _).symm
    | ⟨1, _⟩ => exact (Nat.zero_add _).symm
  rw [Cert.KernelValue.out_apply m c j ⟨k.val, by omega⟩, Cert.RefDist.ref_S_apply, entry_features m c, entry_onehot m c]
  unfold Cert.Spec.distSum
  refine Finset.sum_congr (M := EReal) rfl fun j' _ => ?_
  exact congrArg (Cert.Spec.dist (fun a d => m ((c.tc : Thread nD τ).loc main_arg0) (ix2 a d)) j j' * ·)
    (Cert.RefDist.onehot_slice (m ((c.tc : Thread nD τ).loc main_arg1)) j' k)

/-- The score of the kernel's padded sums is the reference's result on the same arguments. -/
theorem score_eq (c : Dev nD) :
    Cert.Tail.scorePadded (F := Ideal) ((dats (F := Ideal) m 0 c).arrAt 3 cfg0.N) (m ((c.tc : Thread nD τ).loc main_arg1))
      = Cert.ReferenceIdeal.ReadP.val_main_v71 (F := Ideal) (m ((c.tc : Thread nD τ).loc main_arg0)) (m ((c.tc : Thread nD τ).loc main_arg1)) := by
  rw [Cert.RefTail.ref_score]
  unfold Cert.Tail.scorePadded
  rw [sums_cut m c, Cert.RefDist.counts_slice, Cert.RefDist.onehot_slice_eq]

end Cert.Bridge

end
-- ==== Proof.lean ====
/- Pairwise-distance silhouette score: the kernel against its reference.

   The kernel computes, for 8192 points of 128 coordinates and integer labels, the per-class distance
   sums S[i, c] = sum over j of dist(i, j) * [label j = c] on an 8 x 8 grid of 1024-row blocks,
   accumulating over the column blocks in a scratch buffer, the class axis padded to 128 columns; the
   reference computes the same sums by one matrix product, its distance the square root masked where
   the squared distance is not positive. Over the extended reals the masked root is the plain one (the
   root vanishes at zero and the cut squared distance is never negative), the blocked accumulation is
   the whole sum regrouped, the padded columns are cut away, and both programs then apply one and the
   same score. The frames: each program runs to its end without a fault and leaves its arguments as
   launched; the kernel's two windows on the feature array hold it as two half shares for the region.
   The two format round trips through bf16 are the identity over the extended reals. -/
import proofs.«110028_j32676111188224_2_alg».proof.Defs
import proofs.«110028_j32676111188224_2_alg».proof.Proof.Gen.Kernel
import proofs.«110028_j32676111188224_2_alg».proof.Proof.Gen.KernelIdeal
import proofs.«110028_j32676111188224_2_alg».proof.Proof.Gen.ReferenceIdeal
import proofs.«110028_j32676111188224_2_alg».proof.Proof.Gen.Pre_finite_inputs
import proofs.«110028_j32676111188224_2_alg».proof.Proof.K.Frame
import proofs.«110028_j32676111188224_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_word : Cert.frame_Kernel := fun m ρ _ => Cert.Kernel.Hand.frame m ρ

/-- So does the kernel over the extended reals. -/
theorem frame_real : Cert.frame_KernelIdeal := fun m ρ _ => Cert.KernelIdeal.Hand.frame m ρ

/-- The reference is host operations only: its run, with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- Narrowing a block to bf16 and widening it back is the identity over the extended reals, and the
    rounding through bf16 at the word level: once for the row block, once for the column block. -/
theorem preserves : Cert.preserves_Kernel_KernelIdeal :=
  ⟨IdealRules.truncf_extf.statement Cert.KernelIdeal.S1024x128 .f32 .bf16,
   IdealRules.truncf_extf.statement Cert.KernelIdeal.S1024x128 .f32 .bf16⟩

/-- From memories agreeing on the features and the labels both programs end with the same score. -/
theorem algebraic : Cert.algebraic_KernelIdeal_ReferenceIdeal := by
  intro m ρ m' ρ' _ hagree
  refine ⟨fun c => Cert.Tail.scorePadded (F := Ideal)
      ((Cert.KernelIdeal.Hand.dats (F := Ideal) m 0 c).arrAt 3 Cert.KernelIdeal.cfg0.N)
      (m ((c.tc : Thread Cert.KernelIdeal.nD Cert.KernelIdeal.τ).loc Cert.KernelIdeal.main_arg1)),
    Cert.KernelIdeal.Hand.run_scored m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v71_eq, (hagree c).1, (hagree c).2]
  exact (Cert.Bridge.score_eq m c).symm

theorem claim : Cert.Claim :=
  ⟨Cert.Kernel.Gen.facts, Cert.KernelIdeal.Gen.facts, Cert.ReferenceIdeal.Gen.facts, Cert.Pre_finite_inputs.Gen.facts,
    frame_word, frame_real, frame_ref, preserves, algebraic⟩

end Cert.Proof

end
